-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S200000x2 : Shape := ⟨2, ![200000, 2]⟩
abbrev S384x256 : Shape := ⟨2, ![384, 256]⟩
abbrev S256 : Shape := ⟨1, ![256]⟩
abbrev S256x640 : Shape := ⟨2, ![256, 640]⟩
abbrev S640 : Shape := ⟨1, ![640]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x640 : S_.BroadcastsInDim S256x640 (![] : Fin 0 → Fin S256x640.rank)
  reducesTo_S256x640_S_d0_1 : S256x640.ReducesTo [0, 1] S_
  bcast_S_S640 : S_.BroadcastsInDim S640 (![] : Fin 0 → Fin S640.rank)
  reducesTo_S640_S_d0 : S640.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S200000x2 : S_.BroadcastsInDim S200000x2 (![] : Fin 0 → Fin S200000x2.rank)
  reducesTo_S200000x2_S_d0_1 : S200000x2.ReducesTo [0, 1] S_

variable [Facts]

def fn_part3 {F : FTy → Type} [FloatOps F] (main_arg2 : IVec S200000x2 32) (main_v48 : IVec S_ 1) (main_v50 : IVec S200000x2 1) : IVec S_ 1 :=
  let main_c_19 : IVec S_ 32 := constantI S_ 32 50000#32
  let main_v51 : IVec S200000x2 32 := broadcastInDim S200000x2 ![] bcast_S_S200000x2 main_c_19
  let main_v52 : IVec S200000x2 1 := cmpi .slt main_arg2 main_v51
  let main_v53 : IVec S200000x2 1 := andi main_v50 main_v52
  let main_c_20 : IVec S_ 1 := constantI S_ 1 1#1
  let main_v54 : IVec S_ 1 := (fun x v => Host.reduce IntOp.andi x v reducesTo_S200000x2_S_d0_1 h_S_) main_v53 main_c_20
  let main_v55 : IVec S_ 1 := andi main_v48 main_v54
  main_v55

def fn_part2 {F : FTy → Type} [FloatOps F] (main_arg2 : IVec S200000x2 32) (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S200000x2 32 := broadcastInDim S200000x2 ![] bcast_S_S200000x2 main_c_18
  let main_v50 : IVec S200000x2 1 := cmpi .sge main_arg2 main_v49
  fn_part3 (F := F) main_arg2 main_v48 main_v50

def fn_part1 {F : FTy → Type} [FloatOps F] (main_arg2 : IVec S200000x2 32) (main_arg5 : FVec F S256x640 .f32) (main_arg6 : FVec F S640 .f32) (main_arg7 : FVec F S256x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x640 .f32 := Host.absf main_arg5
  let main_cst_6 : FVec F S_ .f32 := constant S_ .f32 0x7F800000#32
  let main_v20 : FVec F S256x640 .f32 := broadcastInDim S256x640 ![] bcast_S_S256x640 main_cst_6
  let main_v21 : IVec S256x640 1 := cmpf .olt main_v19 main_v20
  let main_c_7 : IVec S_ 1 := constantI S_ 1 1#1
  let main_v22 : IVec S_ 1 := (fun x v => Host.reduce IntOp.andi x v reducesTo_S256x640_S_d0_1 h_S_) main_v21 main_c_7
  let main_v23 : IVec S_ 1 := andi main_v18 main_v22
  let main_v24 : FVec F S640 .f32 := Host.absf main_arg6
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x128 .f32) (main_arg1 : FVec F S200000x128 .f32) (main_arg2 : IVec S200000x2 32) (main_arg3 : FVec F S384x256 .f32) (main_arg4 : FVec F S256 .f32) (main_arg5 : FVec F S256x640 .f32) (main_arg6 : FVec F S640 .f32) (main_arg7 : FVec F S256x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x256 .f32 := Host.absf main_arg3
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_v13 main_v16
-- ==== Kernel.lean ====
abbrev S50000x128 : Shape := ⟨2, ![50000, 128]⟩
abbrev S200000x128 : Shape := ⟨2, ![200000, 128]⟩
abbrev S200000x2 : Shape := ⟨2, ![200000, 2]⟩
abbrev S384x256 : Shape := ⟨2, ![384, 256]⟩
abbrev S256 : Shape := ⟨1, ![256]⟩
abbrev S256x640 : Shape := ⟨2, ![256, 640]⟩
abbrev S640 : Shape := ⟨1, ![640]⟩
abbrev S256x256 : Shape := ⟨2, ![256, 256]⟩
abbrev S256x128 : Shape := ⟨2, ![256, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S1 : Shape := ⟨1, ![1]⟩
abbrev S1x1 : Shape := ⟨2, ![1, 1]⟩
abbrev S1x256 : Shape := ⟨2, ![1, 256]⟩
abbrev S1x640 : Shape := ⟨2, ![1, 640]⟩
abbrev S200000x256 : Shape := ⟨2, ![200000, 256]⟩
abbrev S2000x128 : Shape := ⟨2, ![2000, 128]⟩
abbrev S2000x256 : Shape := ⟨2, ![2000, 256]⟩
abbrev S128x256 : Shape := ⟨2, ![128, 256]⟩
abbrev S2000x640 : Shape := ⟨2, ![2000, 640]⟩
abbrev S50000x256 : Shape := ⟨2, ![50000, 256]⟩
abbrev S400000 : Shape := ⟨1, ![400000]⟩
abbrev S50000 : Shape := ⟨1, ![50000]⟩
abbrev S400000x1 : Shape := ⟨2, ![400000, 1]⟩
abbrev S50000x1 : Shape := ⟨2, ![50000, 1]⟩
abbrev S1x128 : Shape := ⟨2, ![1, 128]⟩
abbrev S2000x1 : Shape := ⟨2, ![2000, 1]⟩

abbrev nBuf : Space → Nat
  | .hbm => 93
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x256, .f32⟩
  | .hbm, ⟨4, _⟩ => ⟨S256, .f32⟩
  | .hbm, ⟨5, _⟩ => ⟨S256x640, .f32⟩
  | .hbm, ⟨6, _⟩ => ⟨S640, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S50000x128, .bf16⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S1, .i32⟩
  | .hbm, ⟨25, _⟩ => ⟨S_, .i32⟩
  | .hbm, ⟨26, _⟩ => ⟨S200000x1, .i32⟩
  | .hbm, ⟨27, _⟩ => ⟨S200000x1, .i1⟩
  | .hbm, ⟨28, _⟩ => ⟨S1x1, .i32⟩
  | .hbm, ⟨29, _⟩ => ⟨S200000x1, .i32⟩
  | .hbm, ⟨30, _⟩ => ⟨S200000x1, .i1⟩
  | .hbm, ⟨31, _⟩ => ⟨S200000x1, .i1⟩
  | .hbm, ⟨32, _⟩ => ⟨S_, .i1⟩
  | .hbm, ⟨33, _⟩ => ⟨S200000, .i1⟩
  | .hbm, ⟨34, _⟩ => ⟨S200000x128, .bf16⟩
  | .hbm, ⟨35, _⟩ => ⟨S200000x128, .i1⟩
  | .hbm, ⟨36, _⟩ => ⟨S_, .bf16⟩
  | .hbm, ⟨37, _⟩ => ⟨S200000x128, .bf16⟩
  | .hbm, ⟨38, _⟩ => ⟨S200000x128, .bf16⟩
  | .hbm, ⟨39, _⟩ => ⟨S_, .i32⟩
  | .hbm, ⟨40, _⟩ => ⟨S200000, .i32⟩
  | .hbm, ⟨41, _⟩ => ⟨S200000, .i1⟩
  | .hbm, ⟨42, _⟩ => ⟨S_, .i32⟩
  | .hbm, ⟨43, _⟩ => ⟨S200000, .i32⟩
  | .hbm, ⟨44, _⟩ => ⟨S200000, .i32⟩
  | .hbm, ⟨45, _⟩ => ⟨S200000, .i32⟩
  | .hbm, ⟨46, _⟩ => ⟨S200000x1, .i32⟩
  | .hbm, ⟨47, _⟩ => ⟨S1, .i32⟩
  | .hbm, ⟨48, _⟩ => ⟨S_, .i32⟩
  | .hbm, ⟨49, _⟩ => ⟨S200000x1, .i32⟩
  | .hbm, ⟨50, _⟩ => ⟨S200000x1, .i1⟩
  | .hbm, ⟨51, _⟩ => ⟨S1x1, .i32⟩
  | .hbm, ⟨52, _⟩ => ⟨S200000x1, .i32⟩
  | .hbm, ⟨53, _⟩ => ⟨S200000x1, .i1⟩
  | .hbm, ⟨54, _⟩ => ⟨S200000x1, .i1⟩
  | .hbm, ⟨55, _⟩ => ⟨S_, .i1⟩
  | .hbm, ⟨56, _⟩ => ⟨S200000, .i1⟩
  | .hbm, ⟨57, _⟩ => ⟨S200000x128, .bf16⟩
  | .hbm, ⟨58, _⟩ => ⟨S200000x128, .i1⟩
  | .hbm, ⟨59, _⟩ => ⟨S_, .bf16⟩
  | .hbm, ⟨60, _⟩ => ⟨S200000x128, .bf16⟩
  | .hbm, ⟨61, _⟩ => ⟨S200000x128, .bf16⟩
  | .hbm, ⟨62, _⟩ => ⟨S384x256, .bf16⟩
  | .hbm, ⟨63, _⟩ => ⟨S256x640, .bf16⟩
  | .hbm, ⟨64, _⟩ => ⟨S1x256, .f32⟩
  | .hbm, ⟨65, _⟩ => ⟨S1x640, .f32⟩
  | .hbm, ⟨66, _⟩ => ⟨S200000x256, .bf16⟩
  | .hbm, ⟨67, _⟩ => ⟨S200000x128, .f32⟩
  | .hbm, ⟨68, _⟩ => ⟨S200000x256, .bf16⟩
  | .hbm, ⟨69, _⟩ => ⟨S200000x256, .f32⟩
  | .hbm, ⟨70, _⟩ => ⟨S200000x256, .f32⟩
  | .hbm, ⟨71, _⟩ => ⟨S_, .f32⟩
  | .hbm, ⟨72, _⟩ => ⟨S50000x256, .f32⟩
  | .hbm, ⟨73, _⟩ => ⟨S200000x1, .i32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S200000x1, .i32⟩
  | .hbm, ⟨78, _⟩ => ⟨S50000x256, .f32⟩
  | .hbm, ⟨79, _⟩ => ⟨S50000x256, .f32⟩
  | .hbm, ⟨80, _⟩ => ⟨S400000, .i32⟩
  | .hbm, ⟨81, _⟩ => ⟨S_, .f32⟩
  | .hbm, ⟨82, _⟩ => ⟨S400000, .f32⟩
  | .hbm, ⟨83, _⟩ => ⟨S_, .f32⟩
  | .hbm, ⟨84, _⟩ => ⟨S50000, .f32⟩
  | .hbm, ⟨85, _⟩ => ⟨S400000x1, .i32⟩
  | .hbm, ⟨86, _⟩ => ⟨S50000, .f32⟩
  | .hbm, ⟨87, _⟩ => ⟨S50000x1, .f32⟩
  | .hbm, ⟨88, _⟩ => ⟨S256x256, .bf16⟩
  | .hbm, ⟨89, _⟩ => ⟨S256x128, .bf16⟩
  | .hbm, ⟨90, _⟩ => ⟨S1x256, .f32⟩
  | .hbm, ⟨91, _⟩ => ⟨S1x128, .f32⟩
  | .hbm, ⟨92, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .f32⟩
  | .local _ .vmem, ⟨3, _⟩ => ⟨S2000x128, .f32⟩
  | .local _ .vmem, ⟨4, _⟩ => ⟨S2000x128, .bf16⟩
  | .local _ .vmem, ⟨5, _⟩ => ⟨S2000x128, .bf16⟩
  | .local _ .vmem, ⟨6, _⟩ => ⟨S384x256, .bf16⟩
  | .local _ .vmem, ⟨7, _⟩ => ⟨S1x256, .f32⟩
  | .local _ .vmem, ⟨8, _⟩ => ⟨S256x640, .bf16⟩
  | .local _ .vmem, ⟨9, _⟩ => ⟨S1x640, .f32⟩
  | .local _ .vmem, ⟨10, _⟩ => ⟨S2000x256, .bf16⟩
  | .local _ .vmem, ⟨11, _⟩ => ⟨S2000x256, .bf16⟩
  | .local _ .vmem, ⟨12, _⟩ => ⟨S2000x128, .f32⟩
  | .local _ .vmem, ⟨13, _⟩ => ⟨S2000x128, .f32⟩
  | .local _ .vmem, ⟨14, _⟩ => ⟨S2000x256, .bf16⟩
  | .local _ .vmem, ⟨15, _⟩ => ⟨S2000x256, .bf16⟩
  | .local _ .vmem, ⟨16, _⟩ => ⟨S2000x256, .f32⟩
  | .local _ .vmem, ⟨17, _⟩ => ⟨S2000x256, .f32⟩
  | .local _ .vmem, ⟨18, _⟩ => ⟨S2000x1, .f32⟩
  | .local _ .vmem, ⟨19, _⟩ => ⟨S2000x1, .f32⟩
  | .local _ .vmem, ⟨20, _⟩ => ⟨S256x256, .bf16⟩
  | .local _ .vmem, ⟨21, _⟩ => ⟨S1x256, .f32⟩
  | .local _ .vmem, ⟨22, _⟩ => ⟨S256x128, .bf16⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11_0 : Ref sig .tc := ⟨.hbm, 66, rfl⟩
abbrev main_v11_1 : Ref sig .tc := ⟨.hbm, 67, rfl⟩
abbrev main_v11_2 : Ref sig .tc := ⟨.hbm, 68, rfl⟩
abbrev main_v12 : Ref sig .tc := ⟨.hbm, 69, rfl⟩
abbrev main_v13 : Ref sig .tc := ⟨.hbm, 70, rfl⟩
abbrev main_cst : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_cst_0 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_cst_1 : Ref sig .tc := ⟨.hbm, 81, rfl⟩
abbrev main_v22 : Ref sig .tc := ⟨.hbm, 82, rfl⟩
abbrev main_cst_2 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bitsLt_bf16_f32 : FTy.bits .bf16 < FTy.bits .f32
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  shapeCasts_S256_S1x256 : S256.ShapeCasts S1x256
  shapeCasts_S640_S1x640 : S640.ShapeCasts S1x640
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S384x256_S128x256_0_0 : ∀ a, (![0, 0] : Fin 2 → Nat) a + S128x256.size a ≤ S384x256.size a
  h_S128x256 : 0 < S128x256.numel
  shapeCasts_S128x256_S128x256 : S128x256.ShapeCasts S128x256
  inb_S384x256_S128x256_128_0 : ∀ a, (![128, 0] : Fin 2 → Nat) a + S128x256.size a ≤ S384x256.size a
  inb_S384x256_S128x256_256_0 : ∀ a, (![256, 0] : Fin 2 → Nat) a + S128x256.size a ≤ S384x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2000x640 : S1x640.Broadcasts S2000x640
  slices_S2000x640_o0_0_S2000x256 : S2000x640.Slices ![0, 0] S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  slices_S2000x640_o0_256_S2000x128 : S2000x640.Slices ![0, 256] S2000x128
  slices_S2000x640_o0_384_S2000x256 : S2000x640.Slices ![0, 384] S2000x256
  bcast_S_S50000x256 : S_.BroadcastsInDim S50000x256 (![] : Fin 0 → Fin S50000x256.rank)
  concatenates_S200000_S200000_S400000_d0 : Shape.Concatenates [S200000, S200000] S400000 0
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S50000_S50000x1 : S50000.ShapeCasts S50000x1
  shapeCasts_S128_S1x128 : S128.ShapeCasts S1x128
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S200000x1_S200000x128_1_0_n_n_0_1_1128_wf : GatherDims.WF S50000x128 S200000x1 S200000x128 [1] [0] [] [0] [] 1 ![1, 128]
  dot_S2000x128_S128x256_S2000x256_1_0_0_1_n_n_wf : DotDims.WF S2000x128 S128x256 S2000x256 [1] [0] [0] [1] [] []
  dot_S2000x256_S256x640_S2000x640_1_0_0_1_n_n_wf : DotDims.WF S2000x256 S256x640 S2000x640 [1] [0] [0] [1] [] []
  scatter_S50000x256_S200000x1_S200000x256_1_0_0_1_wf : ScatterDims.WF S50000x256 S200000x1 S200000x256 [1] [0] [0] 1
  scatter_S50000_S400000x1_S400000_n_0_0_1_wf : ScatterDims.WF S50000 S400000x1 S400000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .bf16 = 32 ∨ (Rect.block (s := S200000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S200000x128.size a
  hwx0_2 : ∀ i : grid0.Coords, EltTy.bits .bf16 = 32 ∨ (Rect.block (s := S200000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .bf16 = 32 ∨ (Rect.block (s := S384x256) S384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x640.size a ≤ S256x640.size a
  hwx0_5 : ∀ i : grid0.Coords, EltTy.bits .bf16 = 32 ∨ (Rect.block (s := S256x640) S256x640.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x640.size a ≤ S1x640.size a
  hwx0_6 : ∀ i : grid0.Coords, EltTy.bits .f32 = 32 ∨ (Rect.block (s := S1x640) S1x640.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S200000x256.size a
  hwx0_7 : ∀ i : grid0.Coords, EltTy.bits .bf16 = 32 ∨ (Rect.block (s := S200000x256) S2000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S200000x128.size a
  hwx0_8 : ∀ i : grid0.Coords, EltTy.bits .f32 = 32 ∨ (Rect.block (s := S200000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S200000x256.size a
  hwx0_9 : ∀ i : grid0.Coords, EltTy.bits .bf16 = 32 ∨ (Rect.block (s := S200000x256) S2000x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x640_S2000x640_1_0_0_1_n_n : DotDims S2000x256 S256x640 S2000x640 where
  lhsContracting := [1]
  rhsContracting := [0]
  lhsNonContracting := [0]
  rhsNonContracting := [1]
  lhsBatch := []
  rhsBatch := []
  wf := dot_S2000x256_S256x640_S2000x640_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v5) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v20) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S200000x2 : Shape := ⟨2, ![200000, 2]⟩
abbrev S384x256 : Shape := ⟨2, ![384, 256]⟩
abbrev S256 : Shape := ⟨1, ![256]⟩
abbrev S256x640 : Shape := ⟨2, ![256, 640]⟩
abbrev S640 : Shape := ⟨1, ![640]⟩
abbrev S256x256 : Shape := ⟨2, ![256, 256]⟩
abbrev S256x128 : Shape := ⟨2, ![256, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x256 : Shape := ⟨2, ![200000, 256]⟩
abbrev S1x256 : Shape := ⟨2, ![1, 256]⟩
abbrev S200000x640 : Shape := ⟨2, ![200000, 640]⟩
abbrev S1x640 : Shape := ⟨2, ![1, 640]⟩
abbrev S50000x256 : Shape := ⟨2, ![50000, 256]⟩
abbrev S50000 : Shape := ⟨1, ![50000]⟩
abbrev S50000x1 : Shape := ⟨2, ![50000, 1]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x256, .f32⟩
  | .hbm, ⟨4, _⟩ => ⟨S256, .f32⟩
  | .hbm, ⟨5, _⟩ => ⟨S256x640, .f32⟩
  | .hbm, ⟨6, _⟩ => ⟨S640, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x128, .f32⟩
  | .hbm, ⟨33, _⟩ => ⟨S200000x384, .f32⟩
  | .hbm, ⟨34, _⟩ => ⟨S200000x256, .f32⟩
  | .hbm, ⟨35, _⟩ => ⟨S1x256, .f32⟩
  | .hbm, ⟨36, _⟩ => ⟨S200000x256, .f32⟩
  | .hbm, ⟨37, _⟩ => ⟨S200000x256, .f32⟩
  | .hbm, ⟨38, _⟩ => ⟨S_, .f32⟩
  | .hbm, ⟨39, _⟩ => ⟨S200000x256, .f32⟩
  | .hbm, ⟨40, _⟩ => ⟨S200000x256, .f32⟩
  | .hbm, ⟨41, _⟩ => ⟨S200000x640, .f32⟩
  | .hbm, ⟨42, _⟩ => ⟨S1x640, .f32⟩
  | .hbm, ⟨43, _⟩ => ⟨S200000x640, .f32⟩
  | .hbm, ⟨44, _⟩ => ⟨S200000x640, .f32⟩
  | .hbm, ⟨45, _⟩ => ⟨S_, .f32⟩
  | .hbm, ⟨46, _⟩ => ⟨S200000x640, .f32⟩
  | .hbm, ⟨47, _⟩ => ⟨S200000x640, .f32⟩
  | .hbm, ⟨48, _⟩ => ⟨S200000x256, .f32⟩
  | .hbm, ⟨49, _⟩ => ⟨S200000x128, .f32⟩
  | .hbm, ⟨50, _⟩ => ⟨S200000x256, .f32⟩
  | .hbm, ⟨51, _⟩ => ⟨S_, .f32⟩
  | .hbm, ⟨52, _⟩ => ⟨S50000x256, .f32⟩
  | .hbm, ⟨53, _⟩ => ⟨S200000x1, .i32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S200000x1, .i32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S200000, .f32⟩
  | .hbm, ⟨62, _⟩ => ⟨S_, .f32⟩
  | .hbm, ⟨63, _⟩ => ⟨S50000, .f32⟩
  | .hbm, ⟨64, _⟩ => ⟨S200000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S200000x1, .i32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_cst : Ref sig .tc := ⟨.hbm, 88, rfl⟩
abbrev main_call3_v0 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S640_S1x640_1 : S640.BroadcastsInDim S1x640 (![1] : Fin 1 → Fin S1x640.rank)
  bcast_S1x640_S200000x640_0_1 : S1x640.BroadcastsInDim S200000x640 (![0, 1] : Fin 2 → Fin S200000x640.rank)
  bcast_S_S200000x640 : S_.BroadcastsInDim S200000x640 (![] : Fin 0 → Fin S200000x640.rank)
  slices_S200000x640_S200000x256_0_0 : S200000x640.Slices ![0, 0] S200000x256
  slices_S200000x640_S200000x128_0_256 : S200000x640.Slices ![0, 256] S200000x128
  slices_S200000x640_S200000x256_0_384 : S200000x640.Slices ![0, 384] S200000x256
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S200000x1_S200000x128_1_0_n_n_0_1_1128_wf : GatherDims.WF S50000x128 S200000x1 S200000x128 [1] [0] [] [0] [] 1 ![1, 128]
  dot_S200000x384_S384x256_S200000x256_1_0_0_1_n_n_wf : DotDims.WF S200000x384 S384x256 S200000x256 [1] [0] [0] [1] [] []
  dot_S200000x256_S256x640_S200000x640_1_0_0_1_n_n_wf : DotDims.WF S200000x256 S256x640 S200000x640 [1] [0] [0] [1] [] []
  scatter_S50000x256_S200000x1_S200000x256_1_0_0_1_wf : ScatterDims.WF S50000x256 S200000x1 S200000x256 [1] [0] [0] 1
  scatter_S50000_S200000x1_S200000_n_0_0_1_wf : ScatterDims.WF S50000 S200000x1 S200000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x256_S200000x256_1_0_0_1_n_n : DotDims S200000x384 S384x256 S200000x256 where
  lhsContracting := [1]
  rhsContracting := [0]
  lhsNonContracting := [0]
  rhsNonContracting := [1]
  lhsBatch := []
  rhsBatch := []
  wf := dot_S200000x384_S384x256_S200000x256_1_0_0_1_n_n_wf
def dot_S200000x256_S256x640_S200000x640_1_0_0_1_n_n : DotDims S200000x256 S256x640 S200000x640 where
  lhsContracting := [1]
  rhsContracting := [0]
  lhsNonContracting := [0]
  rhsNonContracting := [1]
  lhsBatch := []
  rhsBatch := []
  wf := dot_S200000x256_S256x640_S200000x640_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  WHAT THE TWO PROGRAMS COMPUTE, element by element on the extended reals.

  A graph has 50000 objects with a 128-vector each and 200000 edges, each with a 128-vector (its predicate) and two
  endpoints (subject, object), given as row numbers of the object table. For edge t the 384 inputs of the first
  two-layer network are the subject's vector, the predicate's vector and the object's vector, in that order; its
  output has 640 columns, of which columns 0..255 are the message to the subject, 256..383 the edge's new predicate
  vector (the second result), 384..639 the message to the object. The messages that arrive at an object are summed,
  divided by the number of edge endpoints at that object (at least one), and fed to a second two-layer network, whose
  128 outputs are the object's new vector (the first result).

  The first layer's sum over the 384 inputs is written here as the kernel groups it: the three 128-term sums over the
  subject's, predicate's and object's vectors against rows 0..127, 128..255, 256..383 of the weight, added left to right.
-/
import Idealize.ShloMosaic.PureOps.Ideal
import Idealize.ShloMosaic.Lib.ValueIdx

open scoped BigOperators

noncomputable section

namespace Cert.Spec

open Idealize.ShloMosaic Idealize.ShloMosaic.ValueIdx

/-- The word both programs write for 0.0. -/
abbrev zeroW : EReal := Ideal.ofBits .f32 0x00000000#32
/-- The word both programs write for 1.0. -/
abbrev oneW : EReal := Ideal.ofBits .f32 0x3F800000#32

/-- The object row an endpoint word names: the word read signed, clamped into the table's rows. -/
def row (e : BitVec 32) : Fin 50000 := ⟨min e.toInt.toNat 49999, by omega⟩

/-- Every endpoint is a row number of the object table. -/
def InRange (x2 : IVec ⟨2, ![200000, 2]⟩ 32) : Prop :=
  ∀ (t : Fin 200000) (a : Fin 2), 0 ≤ (x2 (ix2 t a)).toInt ∧ (x2 (ix2 t a)).toInt < 50000

/-- Hidden unit k of the first network on edge t: the three partial products, the bias, clamped below at 0. -/
def net1Hidden (xs xp xo : Fin 200000 → Fin 128 → EReal) (w1 : Fin 384 → Fin 256 → EReal) (b1 : Fin 256 → EReal)
    (t : Fin 200000) (k : Fin 256) : EReal :=
  max ((((∑ i : Fin 128, xs t i * w1 ⟨i.val, by omega⟩ k) + (∑ i : Fin 128, xp t i * w1 ⟨128 + i.val, by omega⟩ k))
        + (∑ i : Fin 128, xo t i * w1 ⟨256 + i.val, by omega⟩ k)) + b1 k) zeroW

/-- Output column j of the first network on edge t. -/
def net1Out (xs xp xo : Fin 200000 → Fin 128 → EReal) (w1 : Fin 384 → Fin 256 → EReal) (b1 : Fin 256 → EReal)
    (w2 : Fin 256 → Fin 640 → EReal) (b2 : Fin 640 → EReal) (t : Fin 200000) (j : Fin 640) : EReal :=
  max ((∑ k : Fin 256, net1Hidden xs xp xo w1 b1 t k * w2 k j) + b2 j) zeroW

/-- Messages summed per object: the subject messages of the edges whose subject is o plus the object messages of
    the edges whose object is o, each sum started from the 0.0 word. -/
def pool (ns no : Fin 200000 → Fin 256 → EReal) (x2 : IVec ⟨2, ![200000, 2]⟩ 32) (o : Fin 50000) (i : Fin 256) : EReal :=
  (zeroW + ∑ e ∈ Finset.univ.filter (fun e : Fin 200000 => (x2 (ix2 e 0)).toInt = (o.val : Int)), ns e i)
  + (zeroW + ∑ e ∈ Finset.univ.filter (fun e : Fin 200000 => (x2 (ix2 e 1)).toInt = (o.val : Int)), no e i)

/-- Edge endpoints at object o, counted in 1.0 words: subjects, then objects. -/
def cnt (x2 : IVec ⟨2, ![200000, 2]⟩ 32) (o : Fin 50000) : EReal :=
  (zeroW + ∑ _e ∈ Finset.univ.filter (fun e : Fin 200000 => (x2 (ix2 e 0)).toInt = (o.val : Int)), oneW)
  + (zeroW + ∑ _e ∈ Finset.univ.filter (fun e : Fin 200000 => (x2 (ix2 e 1)).toInt = (o.val : Int)), oneW)

/-- Output column j of the second network on object o: the pooled messages over the count (at least 1.0), two layers. -/
def net2Out (p : Fin 50000 → Fin 256 → EReal) (n : Fin 50000 → EReal) (w3 : Fin 256 → Fin 256 → EReal)
    (b3 : Fin 256 → EReal) (w4 : Fin 256 → Fin 128 → EReal) (b4 : Fin 128 → EReal) (o : Fin 50000) (j : Fin 128) : EReal :=
  max ((∑ k : Fin 256,
          max ((∑ i : Fin 256, Ideal.div (p o i) (max (n o) oneW) * w3 i k) + b3 k) zeroW * w4 k j) + b4 j) zeroW

section Args

variable (x0 : (⟨2, ![50000, 128]⟩ : Shape).Idx → EReal) (x1 : (⟨2, ![200000, 128]⟩ : Shape).Idx → EReal)
  (x2 : IVec ⟨2, ![200000, 2]⟩ 32) (x3 : (⟨2, ![384, 256]⟩ : Shape).Idx → EReal) (x4 : (⟨1, ![256]⟩ : Shape).Idx → EReal)
  (x5 : (⟨2, ![256, 640]⟩ : Shape).Idx → EReal) (x6 : (⟨1, ![640]⟩ : Shape).Idx → EReal)
  (x7 : (⟨2, ![256, 256]⟩ : Shape).Idx → EReal) (x8 : (⟨1, ![256]⟩ : Shape).Idx → EReal)
  (x9 : (⟨2, ![256, 128]⟩ : Shape).Idx → EReal) (x10 : (⟨1, ![128]⟩ : Shape).Idx → EReal)

/-- The vector of endpoint a (0 the subject, 1 the object) of edge t. -/
def endVec (a : Fin 2) (t : Fin 200000) (i : Fin 128) : EReal := x0 (ix2 (row (x2 (ix2 t a))) i)

/-- The first network on the argument arrays. -/
def net1 (t : Fin 200000) (j : Fin 640) : EReal :=
  net1Out (endVec x0 x2 0) (fun t i => x1 (ix2 t i)) (endVec x0 x2 1) (fun i k => x3 (ix2 i k)) (fun k => x4 (ix1 k))
    (fun k j => x5 (ix2 k j)) (fun j => x6 (ix1 j)) t j

/-- The second result: the edge's new predicate vector. -/
def newP (t : Fin 200000) (j : Fin 128) : EReal := net1 x0 x1 x2 x3 x4 x5 x6 t ⟨256 + j.val, by omega⟩

/-- The first result: the object's new vector. -/
def newObj (o : Fin 50000) (j : Fin 128) : EReal :=
  net2Out (pool (fun e i => net1 x0 x1 x2 x3 x4 x5 x6 e ⟨i.val, by omega⟩)
                (fun e i => net1 x0 x1 x2 x3 x4 x5 x6 e ⟨384 + i.val, by omega⟩) x2)
    (cnt x2) (fun i k => x7 (ix2 i k)) (fun k => x8 (ix1 k)) (fun k j => x9 (ix2 k j)) (fun j => x10 (ix1 j)) o j

end Args

end Cert.Spec

end
-- ==== Proof.Results.lean ====
/-
  The two results as whole arrays: entry (r, j) of the first is the new vector of object r, entry (t, j) of the second
  the new predicate vector of edge t (Spec.lean has the formulas).
-/
import proofs.«428517_j6459630813308_3_alg».proof.Proof.Spec

noncomputable section

namespace Cert.Spec

open Idealize.ShloMosaic Idealize.ShloMosaic.ValueIdx

variable (x0 : (⟨2, ![50000, 128]⟩ : Shape).Idx → EReal) (x1 : (⟨2, ![200000, 128]⟩ : Shape).Idx → EReal)
  (x2 : IVec ⟨2, ![200000, 2]⟩ 32) (x3 : (⟨2, ![384, 256]⟩ : Shape).Idx → EReal) (x4 : (⟨1, ![256]⟩ : Shape).Idx → EReal)
  (x5 : (⟨2, ![256, 640]⟩ : Shape).Idx → EReal) (x6 : (⟨1, ![640]⟩ : Shape).Idx → EReal)
  (x7 : (⟨2, ![256, 256]⟩ : Shape).Idx → EReal) (x8 : (⟨1, ![256]⟩ : Shape).Idx → EReal)
  (x9 : (⟨2, ![256, 128]⟩ : Shape).Idx → EReal) (x10 : (⟨1, ![128]⟩ : Shape).Idx → EReal)

/-- The first result as an array. -/
def outObj : (⟨2, ![50000, 128]⟩ : Shape).Idx → EReal :=
  fun y => newObj x0 x1 x2 x3 x4 x5 x6 x7 x8 x9 x10 (y 0) (y 1)

/-- The second result as an array. -/
def outP : (⟨2, ![200000, 128]⟩ : Shape).Idx → EReal :=
  fun y => newP x0 x1 x2 x3 x4 x5 x6 (y 0) (y 1)

/-- An array is the first result when it is so entry by entry. -/
theorem eq_outObj (f : (⟨2, ![50000, 128]⟩ : Shape).Idx → EReal)
    (h : ∀ (o : Fin 50000) (j : Fin 128), f (ix2 o j) = newObj x0 x1 x2 x3 x4 x5 x6 x7 x8 x9 x10 o j) :
    f = outObj x0 x1 x2 x3 x4 x5 x6 x7 x8 x9 x10 := by
  funext y
  rw [eq_ix2 y]
  exact h _ _

/-- An array is the second result when it is so entry by entry. -/
theorem eq_outP (f : (⟨2, ![200000, 128]⟩ : Shape).Idx → EReal)
    (h : ∀ (t : Fin 200000) (j : Fin 128), f (ix2 t j) = newP x0 x1 x2 x3 x4 x5 x6 t j) :
    f = outP x0 x1 x2 x3 x4 x5 x6 := by
  funext y
  rw [eq_ix2 y]
  exact h _ _

end Cert.Spec

end
-- ==== Proof.Region0.lean ====
import proofs.«428517_j6459630813308_3_alg».proof.Proof.Gen.KernelIdeal.Frame
import proofs.«428517_j6459630813308_3_alg».proof.Proof.Spec
import Idealize.ShloMosaic.Lib.Pipeline.Value
import Idealize.ShloMosaic.Lib.ValueLayout
import Idealize.ShloMosaic.PureOps.Ideal.Laws

set_option maxRecDepth 16384

open scoped BigOperators

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The two block products read at an index -/

/-- Which entries of the two operands entry (r, k) of the first layer's block product reads at contraction index q:
    row r of the left operand at column q, row q of the right operand at column k. -/
theorem lhs_dotA_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_dotA_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dotA_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dotA_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000×128 block times a 128×256 block into the zero accumulator, at row r and column k: the 128-term sum. -/
theorem mmA_at (a : FVec Ideal S2000x128 .bf16) (b : FVec Ideal S128x256 .bf16) (r : Fin 2000) (k : Fin 256) :
    matmul dot_S2000x128_S128x256_S2000x256_1_0_0_1_n_n none a b (constant S2000x256 .f32 0x00000000#32) (ix2 r k)
      = ∑ i : Fin 128, a (ix2 r i) * b (ix2 i k) := by
  simp only [matmul]
  rw [Ideal.matmul_constant_zero_apply, ← Equiv.sum_comp (contrEquiv1 dot_S2000x128_S128x256_S2000x256_1_0_0_1_n_n 128 rfl rfl).symm]
  refine Finset.sum_congr rfl fun i _ => ?_
  have hk := contrEquiv1_symm_val dot_S2000x128_S128x256_S2000x256_1_0_0_1_n_n 128 rfl rfl i
  have el : dot_S2000x128_S128x256_S2000x256_1_0_0_1_n_n.lhsIdx (ix2 r k) ((contrEquiv1 dot_S2000x128_S128x256_S2000x256_1_0_0_1_n_n 128 rfl rfl).symm i) = ix2 r i := funext fun a => Fin.ext (by
    match a with
    | ⟨0, _⟩ => exact lhs_dotA_0 _ _
    | ⟨1, _⟩ => exact (lhs_dotA_1 _ _).trans hk)
  have er : dot_S2000x128_S128x256_S2000x256_1_0_0_1_n_n.rhsIdx (ix2 r k) ((contrEquiv1 dot_S2000x128_S128x256_S2000x256_1_0_0_1_n_n 128 rfl rfl).symm i) = ix2 i k := funext fun a => Fin.ext (by
    match a with
    | ⟨0, _⟩ => exact (rhs_dotA_0 _ _).trans hk
    | ⟨1, _⟩ => exact rhs_dotA_1 _ _)
  rw [el, er]

/-- The same for the second layer's block product. -/
theorem lhs_dotB_0 (i : S2000x640.Idx) (q : dot_S2000x256_S256x640_S2000x640_1_0_0_1_n_n.contr.Idx) :
    (dot_S2000x256_S256x640_S2000x640_1_0_0_1_n_n.lhsIdx i q 0).val = (i 0).val := by
  unfold DotDims.lhsIdx
  rw [dif_neg (show ¬(0 : Fin S2000x256.rank) ∈ dot_S2000x256_S256x640_S2000x640_1_0_0_1_n_n.lhsBatch by decide), dif_pos (show (0 : Fin S2000x256.rank) ∈ dot_S2000x256_S256x640_S2000x640_1_0_0_1_n_n.lhsNonContracting by decide)]
  rfl
theorem lhs_dotB_1 (i : S2000x640.Idx) (q : dot_S2000x256_S256x640_S2000x640_1_0_0_1_n_n.contr.Idx) :
    (dot_S2000x256_S256x640_S2000x640_1_0_0_1_n_n.lhsIdx i q 1).val = (q ⟨0, by decide⟩).val :=
  dot_S2000x256_S256x640_S2000x640_1_0_0_1_n_n.lhsIdx_val_of_single rfl i q
theorem rhs_dotB_0 (i : S2000x640.Idx) (q : dot_S2000x256_S256x640_S2000x640_1_0_0_1_n_n.contr.Idx) :
    (dot_S2000x256_S256x640_S2000x640_1_0_0_1_n_n.rhsIdx i q 0).val = (q ⟨0, by decide⟩).val :=
  dot_S2000x256_S256x640_S2000x640_1_0_0_1_n_n.rhsIdx_val_of_single rfl i q
theorem rhs_dotB_1 (i : S2000x640.Idx) (q : dot_S2000x256_S256x640_S2000x640_1_0_0_1_n_n.contr.Idx) :
    (dot_S2000x256_S256x640_S2000x640_1_0_0_1_n_n.rhsIdx i q 1).val = (i 1).val := by
  unfold DotDims.rhsIdx
  rw [dif_neg (show ¬(1 : Fin S256x640.rank) ∈ dot_S2000x256_S256x640_S2000x640_1_0_0_1_n_n.rhsBatch by decide), dif_pos (show (1 : Fin S256x640.rank) ∈ dot_S2000x256_S256x640_S2000x640_1_0_0_1_n_n.rhsNonContracting by decide)]
  rfl

/-- A 2000×256 block times the 256×640 weight into the zero accumulator, at row r and column j: the 256-term sum. -/
theorem mmB_at (a : FVec Ideal S2000x256 .bf16) (b : FVec Ideal S256x640 .bf16) (r : Fin 2000) (j : Fin 640) :
    matmul dot_S2000x256_S256x640_S2000x640_1_0_0_1_n_n none a b (constant S2000x640 .f32 0x00000000#32) (ix2 r j)
      = ∑ k : Fin 256, a (ix2 r k) * b (ix2 k j) := by
  simp only [matmul]
  rw [Ideal.matmul_constant_zero_apply, ← Equiv.sum_comp (contrEquiv1 dot_S2000x256_S256x640_S2000x640_1_0_0_1_n_n 256 rfl rfl).symm]
  refine Finset.sum_congr rfl fun k _ => ?_
  have hk := contrEquiv1_symm_val dot_S2000x256_S256x640_S2000x640_1_0_0_1_n_n 256 rfl rfl k
  have el : dot_S2000x256_S256x640_S2000x640_1_0_0_1_n_n.lhsIdx (ix2 r j) ((contrEquiv1 dot_S2000x256_S256x640_S2000x640_1_0_0_1_n_n 256 rfl rfl).symm k) = ix2 r k := funext fun a => Fin.ext (by
    match a with
    | ⟨0, _⟩ => exact lhs_dotB_0 _ _
    | ⟨1, _⟩ => exact (lhs_dotB_1 _ _).trans hk)
  have er : dot_S2000x256_S256x640_S2000x640_1_0_0_1_n_n.rhsIdx (ix2 r j) ((contrEquiv1 dot_S2000x256_S256x640_S2000x640_1_0_0_1_n_n 256 rfl rfl).symm k) = ix2 k j := funext fun a => Fin.ext (by
    match a with
    | ⟨0, _⟩ => exact (rhs_dotB_0 _ _).trans hk
    | ⟨1, _⟩ => exact rhs_dotB_1 _ _)
  rw [el, er]

/-- The hidden layer of the body at row r, unit k, from the loaded blocks. -/
def hid (v0 : FVec Ideal S2000x128 .bf16) (v2 : FVec Ideal S2000x128 .f32) (v4 : FVec Ideal S2000x128 .bf16)
    (v6 v8 v10 : FVec Ideal S128x256 .bf16) (v17 : FVec Ideal S1x256 .f32) (r : Fin 2000) (k : Fin 256) : EReal :=
  max ((((∑ i : Fin 128, v0 (ix2 r i) * v6 (ix2 i k)) + (∑ i : Fin 128, v2 (ix2 r i) * v8 (ix2 i k)))
        + (∑ i : Fin 128, v4 (ix2 r i) * v10 (ix2 i k))) + v17 (ix2 (0 : Fin 1) k)) Spec.zeroW

/-- The body's 640-column result at row r, column j, from the loaded blocks. -/
theorem pay3_at (v0 : FVec Ideal S2000x128 .bf16) (v2 : FVec Ideal S2000x128 .f32) (v4 : FVec Ideal S2000x128 .bf16)
    (v6 v8 v10 : FVec Ideal S128x256 .bf16) (v17 : FVec Ideal S1x256 .f32) (v24 : FVec Ideal S256x640 .bf16)
    (v27 : FVec Ideal S1x640 .f32) (r : Fin 2000) (j : Fin 640) :
    k0_pay3 (F := Ideal) v0 v2 v4 v6 v8 v10 v17 v24 v27 (ix2 r j)
      = max ((∑ k : Fin 256, hid v0 v2 v4 v6 v8 v10 v17 r k * v24 (ix2 k j)) + v27 (ix2 (0 : Fin 1) j)) Spec.zeroW := by
  unfold k0_pay3
  simp only [shapeCast_self]
  rw [maximumf_apply, addf_apply, broadcast_apply, broadcastTo_1b_ab_apply, mmB_at]
  refine congrArg₂ max (congrArg (· + v27 (ix2 (0 : Fin 1) j)) (Finset.sum_congr rfl fun k _ => ?_)) rfl
  refine congrArg (· * v24 (ix2 k j)) ?_
  rw [truncf_apply, maximumf_apply, addf_apply, addf_apply, addf_apply, mmA_at, mmA_at, mmA_at, broadcast_apply,
    broadcastTo_1b_ab_apply]
  rfl

section Spec

variable (xs xp xo : Fin 200000 → Fin 128 → EReal) (w1 : Fin 384 → Fin 256 → EReal) (b1 : Fin 256 → EReal)
  (w2 : Fin 256 → Fin 640 → EReal) (b2 : Fin 640 → EReal)

/-- When row r of the three loaded input blocks is row T of the input arrays, and the loaded weight and bias blocks
    are the weight and bias arrays (the first weight as its three 128-row bands), the body's result at row r is the
    first network's output on edge T. -/
theorem pay3_spec (v0 : FVec Ideal S2000x128 .bf16) (v2 : FVec Ideal S2000x128 .f32) (v4 : FVec Ideal S2000x128 .bf16)
    (v6 v8 v10 : FVec Ideal S128x256 .bf16) (v17 : FVec Ideal S1x256 .f32) (v24 : FVec Ideal S256x640 .bf16)
    (v27 : FVec Ideal S1x640 .f32) (T : Fin 200000) (r : Fin 2000)
    (h0 : ∀ i : Fin 128, v0 (ix2 r i) = xs T i) (h2 : ∀ i : Fin 128, v2 (ix2 r i) = xp T i)
    (h4 : ∀ i : Fin 128, v4 (ix2 r i) = xo T i)
    (h6 : ∀ (i : Fin 128) (k : Fin 256), v6 (ix2 i k) = w1 ⟨i.val, by omega⟩ k)
    (h8 : ∀ (i : Fin 128) (k : Fin 256), v8 (ix2 i k) = w1 ⟨128 + i.val, by omega⟩ k)
    (h10 : ∀ (i : Fin 128) (k : Fin 256), v10 (ix2 i k) = w1 ⟨256 + i.val, by omega⟩ k)
    (h17 : ∀ k : Fin 256, v17 (ix2 (0 : Fin 1) k) = b1 k) (h24 : ∀ (k : Fin 256) (j : Fin 640), v24 (ix2 k j) = w2 k j)
    (h27 : ∀ j : Fin 640, v27 (ix2 (0 : Fin 1) j) = b2 j) (j : Fin 640) :
    k0_pay3 (F := Ideal) v0 v2 v4 v6 v8 v10 v17 v24 v27 (ix2 r j) = Spec.net1Out xs xp xo w1 b1 w2 b2 T j := by
  rw [pay3_at]
  unfold Spec.net1Out Spec.net1Hidden hid
  simp only [h0, h2, h4, h6, h8, h10, h17, h24, h27]

/-- The subject-message slice (columns 0..255). -/
theorem pay4_spec (v0 : FVec Ideal S2000x128 .bf16) (v2 : FVec Ideal S2000x128 .f32) (v4 : FVec Ideal S2000x128 .bf16)
    (v6 v8 v10 : FVec Ideal S128x256 .bf16) (v17 : FVec Ideal S1x256 .f32) (v24 : FVec Ideal S256x640 .bf16)
    (v27 : FVec Ideal S1x640 .f32) (T : Fin 200000) (r : Fin 2000)
    (h0 : ∀ i : Fin 128, v0 (ix2 r i) = xs T i) (h2 : ∀ i : Fin 128, v2 (ix2 r i) = xp T i)
    (h4 : ∀ i : Fin 128, v4 (ix2 r i) = xo T i)
    (h6 : ∀ (i : Fin 128) (k : Fin 256), v6 (ix2 i k) = w1 ⟨i.val, by omega⟩ k)
    (h8 : ∀ (i : Fin 128) (k : Fin 256), v8 (ix2 i k) = w1 ⟨128 + i.val, by omega⟩ k)
    (h10 : ∀ (i : Fin 128) (k : Fin 256), v10 (ix2 i k) = w1 ⟨256 + i.val, by omega⟩ k)
    (h17 : ∀ k : Fin 256, v17 (ix2 (0 : Fin 1) k) = b1 k) (h24 : ∀ (k : Fin 256) (j : Fin 640), v24 (ix2 k j) = w2 k j)
    (h27 : ∀ j : Fin 640, v27 (ix2 (0 : Fin 1) j) = b2 j) (j : Fin 256) :
    k0_pay4 (F := Ideal) v0 v2 v4 v6 v8 v10 v17 v24 v27 (ix2 r j)
      = Spec.net1Out xs xp xo w1 b1 w2 b2 T ⟨j.val, by omega⟩ := by
  unfold k0_pay4
  rw [truncf_apply]
  refine (slice2_axis1_apply 0 _ slices_S2000x640_o0_0_S2000x256 r j ⟨j.val, by omega⟩ (Nat.zero_add _).symm).trans ?_
  exact pay3_spec xs xp xo w1 b1 w2 b2 v0 v2 v4 v6 v8 v10 v17 v24 v27 T r h0 h2 h4 h6 h8 h10 h17 h24 h27 _

/-- The new-predicate slice (columns 256..383) of a 640-column result. -/
theorem pay1_at (v32 : FVec Ideal S2000x640 .f32) (r : Fin 2000) (j : Fin 128) :
    k0_pay1 (F := Ideal) v32 (ix2 r j) = v32 (ix2 r ⟨256 + j.val, by omega⟩) := by
  unfold k0_pay1
  exact slice2_axis1_apply 256 _ slices_S2000x640_o0_256_S2000x128 r j ⟨256 + j.val, by omega⟩ rfl

/-- The object-message slice (columns 384..639) of a 640-column result. -/
theorem pay2_at (v32 : FVec Ideal S2000x640 .f32) (r : Fin 2000) (j : Fin 256) :
    k0_pay2 (F := Ideal) v32 (ix2 r j) = v32 (ix2 r ⟨384 + j.val, by omega⟩) := by
  unfold k0_pay2
  rw [truncf_apply]
  exact slice2_axis1_apply 384 _ slices_S2000x640_o0_384_S2000x256 r j ⟨384 + j.val, by omega⟩ rfl

end Spec

/-! ## What the body leaves in the three output buffers, at an index

The body loads the seven staged blocks whole, except the first weight, which it loads as its three 128-row bands
(rows 0..127, 128..255, 256..383), and stores each output slice over its whole buffer. -/

theorem hz : (![0, 0] : Fin 2 → Nat) = fun _ => 0 := funext fun a => match a with | ⟨0, _⟩ => rfl | ⟨1, _⟩ => rfl

/-- Row i of the first band of the staged first weight is its row i. -/
theorem ld_band0 (x3 : Vec Ideal S384x256 .bf16) (i : Fin 128) (k : Fin 256) :
    View.ld x3 r0_1 (ix2 i k) = x3 (ix2 ⟨i.val, by omega⟩ k) :=
  congrArg x3 (funext fun a => Fin.ext (match a with
    | ⟨0, _⟩ => by show 0 + 1 * i.val = i.val; omega
    | ⟨1, _⟩ => by show 0 + 1 * k.val = k.val; omega))
/-- Row i of the second band is its row 128 + i. -/
theorem ld_band1 (x3 : Vec Ideal S384x256 .bf16) (i : Fin 128) (k : Fin 256) :
    View.ld x3 r0_2 (ix2 i k) = x3 (ix2 ⟨128 + i.val, by omega⟩ k) :=
  congrArg x3 (funext fun a => Fin.ext (match a with
    | ⟨0, _⟩ => by show 128 + 1 * i.val = 128 + i.val; omega
    | ⟨1, _⟩ => by show 0 + 1 * k.val = k.val; omega))
/-- Row i of the third band is its row 256 + i. -/
theorem ld_band2 (x3 : Vec Ideal S384x256 .bf16) (i : Fin 128) (k : Fin 256) :
    View.ld x3 r0_3 (ix2 i k) = x3 (ix2 ⟨256 + i.val, by omega⟩ k) :=
  congrArg x3 (funext fun a => Fin.ext (match a with
    | ⟨0, _⟩ => by show 256 + 1 * i.val = 256 + i.val; omega
    | ⟨1, _⟩ => by show 0 + 1 * k.val = k.val; omega))

section Out

variable (xs xp xo : Fin 200000 → Fin 128 → EReal) (w1 : Fin 384 → Fin 256 → EReal) (b1 : Fin 256 → EReal)
  (w2 : Fin 256 → Fin 640 → EReal) (b2 : Fin 640 → EReal)
  (x0 : Vec Ideal S2000x128 .bf16) (x1 : Vec Ideal S2000x128 .f32) (x2 : Vec Ideal S2000x128 .bf16)
  (x3 : Vec Ideal S384x256 .bf16) (x4 : Vec Ideal S1x256 .f32) (x5 : Vec Ideal S256x640 .bf16) (x6 : Vec Ideal S1x640 .f32)
  (T : Fin 200000) (r : Fin 2000)
  (h0 : ∀ i : Fin 128, x0 (ix2 r i) = xs T i) (h1 : ∀ i : Fin 128, x1 (ix2 r i) = xp T i)
  (h2 : ∀ i : Fin 128, x2 (ix2 r i) = xo T i)
  (h3 : ∀ (i : Fin 384) (k : Fin 256), x3 (ix2 i k) = w1 i k)
  (h4 : ∀ k : Fin 256, x4 (ix2 (0 : Fin 1) k) = b1 k) (h5 : ∀ (k : Fin 256) (j : Fin 640), x5 (ix2 k j) = w2 k j)
  (h6 : ∀ j : Fin 640, x6 (ix2 (0 : Fin 1) j) = b2 j)

include h0 h1 h2 h3 h4 h5 h6

/-- The subject-message buffer after the body: row r, column j is output column j on edge T. -/
theorem out7_spec (j : Fin 256) :
    out0_7 (F := Ideal) x0 x1 x2 x3 x4 x5 x6 (ix2 r j) = Spec.net1Out xs xp xo w1 b1 w2 b2 T ⟨j.val, by omega⟩ := by
  unfold out0_7
  rw [View.canon_unit_zero hz]
  simp only [View.ld_unit_zero (S := S2000x128) hz, View.ld_unit_zero (S := S1x256) hz,
    View.ld_unit_zero (S := S256x640) hz, View.ld_unit_zero (S := S1x640) hz]
  exact pay4_spec xs xp xo w1 b1 w2 b2 x0 x1 x2 _ _ _ x4 x5 x6 T r h0 h1 h2
    (fun i k => (ld_band0 x3 i k).trans (h3 _ _)) (fun i k => (ld_band1 x3 i k).trans (h3 _ _))
    (fun i k => (ld_band2 x3 i k).trans (h3 _ _)) h4 h5 h6 j

/-- The new-predicate buffer after the body: row r, column j is output column 256 + j on edge T. -/
theorem out8_spec (j : Fin 128) :
    out0_8 (F := Ideal) x0 x1 x2 x3 x4 x5 x6 (ix2 r j) = Spec.net1Out xs xp xo w1 b1 w2 b2 T ⟨256 + j.val, by omega⟩ := by
  unfold out0_8
  rw [View.canon_unit_zero hz]
  simp only [View.ld_unit_zero (S := S2000x128) hz, View.ld_unit_zero (S := S1x256) hz,
    View.ld_unit_zero (S := S256x640) hz, View.ld_unit_zero (S := S1x640) hz]
  rw [pay1_at]
  exact pay3_spec xs xp xo w1 b1 w2 b2 x0 x1 x2 _ _ _ x4 x5 x6 T r h0 h1 h2
    (fun i k => (ld_band0 x3 i k).trans (h3 _ _)) (fun i k => (ld_band1 x3 i k).trans (h3 _ _))
    (fun i k => (ld_band2 x3 i k).trans (h3 _ _)) h4 h5 h6 _

/-- The object-message buffer after the body: row r, column j is output column 384 + j on edge T. -/
theorem out9_spec (j : Fin 256) :
    out0_9 (F := Ideal) x0 x1 x2 x3 x4 x5 x6 (ix2 r j) = Spec.net1Out xs xp xo w1 b1 w2 b2 T ⟨384 + j.val, by omega⟩ := by
  unfold out0_9
  rw [View.canon_unit_zero hz]
  simp only [View.ld_unit_zero (S := S2000x128) hz, View.ld_unit_zero (S := S1x256) hz,
    View.ld_unit_zero (S := S256x640) hz, View.ld_unit_zero (S := S1x640) hz]
  rw [pay2_at]
  exact pay3_spec xs xp xo w1 b1 w2 b2 x0 x1 x2 _ _ _ x4 x5 x6 T r h0 h1 h2
    (fun i k => (ld_band0 x3 i k).trans (h3 _ _)) (fun i k => (ld_band1 x3 i k).trans (h3 _ _))
    (fun i k => (ld_band2 x3 i k).trans (h3 _ _)) h4 h5 h6 _

end Out

variable (V : (c : Dev nD) → (b : Ref sig .tc) → Buf (Elt Ideal) ((c : Thread nD τ).loc b))

/-- The first call's seven input arrays as the call finds them, read by coordinates. -/
abbrev xs (c : Dev nD) (t : Fin 200000) (i : Fin 128) : EReal :=
  (V c (Pipeline.arrRef spec0 0) : (⟨2, ![200000, 128]⟩ : Shape).Idx → EReal) (ix2 t i)
abbrev xp (c : Dev nD) (t : Fin 200000) (i : Fin 128) : EReal :=
  (V c (Pipeline.arrRef spec0 1) : (⟨2, ![200000, 128]⟩ : Shape).Idx → EReal) (ix2 t i)
abbrev xo (c : Dev nD) (t : Fin 200000) (i : Fin 128) : EReal :=
  (V c (Pipeline.arrRef spec0 2) : (⟨2, ![200000, 128]⟩ : Shape).Idx → EReal) (ix2 t i)
abbrev w1 (c : Dev nD) (i : Fin 384) (k : Fin 256) : EReal :=
  (V c (Pipeline.arrRef spec0 3) : (⟨2, ![384, 256]⟩ : Shape).Idx → EReal) (ix2 i k)
abbrev b1 (c : Dev nD) (k : Fin 256) : EReal :=
  (V c (Pipeline.arrRef spec0 4) : (⟨2, ![1, 256]⟩ : Shape).Idx → EReal) (ix2 0 k)
abbrev w2 (c : Dev nD) (k : Fin 256) (j : Fin 640) : EReal :=
  (V c (Pipeline.arrRef spec0 5) : (⟨2, ![256, 640]⟩ : Shape).Idx → EReal) (ix2 k j)
abbrev b2 (c : Dev nD) (j : Fin 640) : EReal :=
  (V c (Pipeline.arrRef spec0 6) : (⟨2, ![1, 640]⟩ : Shape).Idx → EReal) (ix2 0 j)

/-! ## From the blocks to the arrays

Point t of the grid stages rows 2000 t … 2000 t + 1999 of the three input arrays and of the three output arrays, and
the two weights and the two biases whole. -/

/-- The printed index maps, decided once over the grid's 100 points: the row-blocked windows are at block (t, 0), the
    whole windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row r of the subject block at point t is row 2000 t + r of the subject array. -/
theorem blk0_row (c : Dev nD) (t : Fin cfg0.N) (r : Fin 2000) (T : Fin 200000) (hT : T.val = t.val * 2000 + r.val)
    (i : Fin 128) : (iblk0 V c 0 t : Vec Ideal S2000x128 .bf16) (ix2 r i) = xs V c T i := by
  obtain ⟨e0, e1, -⟩ := idx_facts t
  show (V c (Pipeline.arrRef spec0 0)) (((cfg0.win 0).blk t).view.emb (ix2 r i)) = (V c (Pipeline.arrRef spec0 0)) (ix2 T i)
  refine congrArg _ (funext fun a => Fin.ext ?_)
  match a with
  | ⟨0, _⟩ => show win0_0.index t (0 : Fin 2) * 2000 + 1 * r.val = T.val; omega
  | ⟨1, _⟩ => show win0_0.index t (1 : Fin 2) * 128 + 1 * i.val = i.val; omega

/-- Row r of the predicate block at point t is row 2000 t + r of the predicate array. -/
theorem blk1_row (c : Dev nD) (t : Fin cfg0.N) (r : Fin 2000) (T : Fin 200000) (hT : T.val = t.val * 2000 + r.val)
    (i : Fin 128) : (iblk0 V c 1 t : Vec Ideal S2000x128 .f32) (ix2 r i) = xp V c T i := by
  obtain ⟨-, -, e0, e1, -⟩ := idx_facts t
  show (V c (Pipeline.arrRef spec0 1)) (((cfg0.win 1).blk t).view.emb (ix2 r i)) = (V c (Pipeline.arrRef spec0 1)) (ix2 T i)
  refine congrArg _ (funext fun a => Fin.ext ?_)
  match a with
  | ⟨0, _⟩ => show win0_1.index t (0 : Fin 2) * 2000 + 1 * r.val = T.val; omega
  | ⟨1, _⟩ => show win0_1.index t (1 : Fin 2) * 128 + 1 * i.val = i.val; omega

/-- Row r of the object block at point t is row 2000 t + r of the object array. -/
theorem blk2_row (c : Dev nD) (t : Fin cfg0.N) (r : Fin 2000) (T : Fin 200000) (hT : T.val = t.val * 2000 + r.val)
    (i : Fin 128) : (iblk0 V c 2 t : Vec Ideal S2000x128 .bf16) (ix2 r i) = xo V c T i := by
  obtain ⟨-, -, -, -, e0, e1, -⟩ := idx_facts t
  show (V c (Pipeline.arrRef spec0 2)) (((cfg0.win 2).blk t).view.emb (ix2 r i)) = (V c (Pipeline.arrRef spec0 2)) (ix2 T i)
  refine congrArg _ (funext fun a => Fin.ext ?_)
  match a with
  | ⟨0, _⟩ => show win0_2.index t (0 : Fin 2) * 2000 + 1 * r.val = T.val; omega
  | ⟨1, _⟩ => show win0_2.index t (1 : Fin 2) * 128 + 1 * i.val = i.val; omega

/-- The first weight's block at every point is the whole array. -/
theorem blk3_at (c : Dev nD) (t : Fin cfg0.N) (i : Fin 384) (k : Fin 256) :
    (iblk0 V c 3 t : Vec Ideal S384x256 .bf16) (ix2 i k) = w1 V c i k := by
  obtain ⟨-, -, -, -, -, -, e0, e1, -⟩ := idx_facts t
  show (V c (Pipeline.arrRef spec0 3)) (((cfg0.win 3).blk t).view.emb (ix2 i k)) = (V c (Pipeline.arrRef spec0 3)) (ix2 i k)
  refine congrArg _ (funext fun a => Fin.ext ?_)
  match a with
  | ⟨0, _⟩ => show win0_3.index t (0 : Fin 2) * 384 + 1 * i.val = i.val; omega
  | ⟨1, _⟩ => show win0_3.index t (1 : Fin 2) * 256 + 1 * k.val = k.val; omega

/-- The first bias's block at every point is the whole array. -/
theorem blk4_at (c : Dev nD) (t : Fin cfg0.N) (k : Fin 256) :
    (iblk0 V c 4 t : Vec Ideal S1x256 .f32) (ix2 (0 : Fin 1) k) = b1 V c k := by
  obtain ⟨-, -, -, -, -, -, -, -, e0, e1, -⟩ := idx_facts t
  show (V c (Pipeline.arrRef spec0 4)) (((cfg0.win 4).blk t).view.emb (ix2 (0 : Fin 1) k)) = (V c (Pipeline.arrRef spec0 4)) (ix2 (0 : Fin 1) k)
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * k.val = k.val; omega

/-- The second weight's block at every point is the whole array. -/
theorem blk5_at (c : Dev nD) (t : Fin cfg0.N) (k : Fin 256) (j : Fin 640) :
    (iblk0 V c 5 t : Vec Ideal S256x640 .bf16) (ix2 k j) = w2 V c k j := by
  obtain ⟨-, -, -, -, -, -, -, -, -, -, e0, e1, -⟩ := idx_facts t
  show (V c (Pipeline.arrRef spec0 5)) (((cfg0.win 5).blk t).view.emb (ix2 k j)) = (V c (Pipeline.arrRef spec0 5)) (ix2 k j)
  refine congrArg _ (funext fun a => Fin.ext ?_)
  match a with
  | ⟨0, _⟩ => show win0_5.index t (0 : Fin 2) * 256 + 1 * k.val = k.val; omega
  | ⟨1, _⟩ => show win0_5.index t (1 : Fin 2) * 640 + 1 * j.val = j.val; omega

/-- The second bias's block at every point is the whole array. -/
theorem blk6_at (c : Dev nD) (t : Fin cfg0.N) (j : Fin 640) :
    (iblk0 V c 6 t : Vec Ideal S1x640 .f32) (ix2 (0 : Fin 1) j) = b2 V c j := by
  obtain ⟨-, -, -, -, -, -, -, -, -, -, -, -, e0, e1, -⟩ := idx_facts t
  show (V c (Pipeline.arrRef spec0 6)) (((cfg0.win 6).blk t).view.emb (ix2 (0 : Fin 1) j)) = (V c (Pipeline.arrRef spec0 6)) (ix2 (0 : Fin 1) j)
  refine congrArg _ (funext fun a => Fin.ext ?_)
  match a with
  | ⟨0, _⟩ => show win0_6.index t (0 : Fin 2) * 1 + 1 * 0 = 0; omega
  | ⟨1, _⟩ => show win0_6.index t (1 : Fin 2) * 640 + 1 * j.val = j.val; omega

/-- The subject-message array the first call leaves: row t, column j is output column j of the first network on edge t. -/
abbrev G7 (c : Dev nD) : S200000x256.Idx → EReal := fun i =>
  Spec.net1Out (xs V c) (xp V c) (xo V c) (w1 V c) (b1 V c) (w2 V c) (b2 V c) ⟨(i 0).val, idx2_lt0 i⟩
    ⟨(i 1).val, by have := idx2_lt1 i; omega⟩

/-- What point t writes back to window 7 is block t of that array. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  funext y
  obtain ⟨r, j, rfl⟩ : ∃ (r : Fin 2000) (j : Fin 256), y = ix2 r j := ⟨y 0, y 1, eq_ix2 y⟩
  have hN : grid0.N = 100 := N_0
  have ht : t.val < grid0.N := t.isLt
  obtain ⟨T, hT⟩ : ∃ T : Fin 200000, T.val = t.val * 2000 + r.val := ⟨⟨t.val * 2000 + r.val, by omega⟩, rfl⟩
  have e := idx_facts t
  have he : ((cfg0.win 7).blk t).view.emb (ix2 r j) = (ix2 T j : S200000x256.Idx) := funext fun a => Fin.ext (by
    match a with
    | ⟨0, _⟩ => show win0_7.index t (0 : Fin 2) * 2000 + 1 * r.val = T.val; omega
    | ⟨1, _⟩ => show win0_7.index t (1 : Fin 2) * 256 + 1 * j.val = j.val; omega)
  have key := out7_spec (xs V c) (xp V c) (xo V c) (w1 V c) (b1 V c) (w2 V c) (b2 V c)
    (iblk0 V c 0 t) (iblk0 V c 1 t) (iblk0 V c 2 t) (iblk0 V c 3 t) (iblk0 V c 4 t) (iblk0 V c 5 t) (iblk0 V c 6 t) T r
    (blk0_row V c t r T hT) (blk1_row V c t r T hT) (blk2_row V c t r T hT) (blk3_at V c t) (blk4_at V c t)
    (blk5_at V c t) (blk6_at V c t) j
  exact key.trans (congrArg (G7 V c) he).symm

/-- An index of the array is in point t's block iff each coordinate is in the block's range on its axis. -/
theorem mem_blk7 (t : Fin cfg0.N) (i : S200000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v11_0).slice (win0_7.rect t)).set ↔ _
  rw [View.set_slice_whole, Rect.mem_set_unit]
  exact Iff.rfl

/-- Row r of the array is written by point r / 2000: the blocks tile the array. -/
theorem cover7 (i : S200000x256.Idx) :
    ∃ t : Fin cfg0.N, (cfg0.win 7).flush t = true ∧ i ∈ ((cfg0.win 7).blk t).view.set := by
  have hi0 : (i 0).val < 200000 := idx2_lt0 i
  have hi1 : (i 1).val < 256 := idx2_lt1 i
  have hN : grid0.N = 100 := N_0
  obtain ⟨t, ht⟩ : ∃ t : Fin cfg0.N, t.val = (i 0).val / 2000 := ⟨⟨(i 0).val / 2000, by show _ < grid0.N; omega⟩, rfl⟩
  have e := idx_facts t
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 256 ≤ (i 1).val ∧ (i 1).val < win0_7.index t (1 : Fin 2) * 256 + 256; omega

/-- The whole array after the first call. -/
theorem final7 (c : Dev nD) : (dat0 V c).arrAt 7 cfg0.N = G7 V c :=
  (dat0 V c).arrAt_eq_of_cover 7 (G7 V c) (fun t _ => flushed7_eq V c t) cover7

/-- The new-predicate array the first call leaves: row t, column j is output column 256 + j of the first network on edge t. -/
abbrev G8 (c : Dev nD) : S200000x128.Idx → EReal := fun i =>
  Spec.net1Out (xs V c) (xp V c) (xo V c) (w1 V c) (b1 V c) (w2 V c) (b2 V c) ⟨(i 0).val, idx2_lt0 i⟩
    ⟨256 + (i 1).val, by have := idx2_lt1 i; omega⟩

/-- What point t writes back to window 8 is block t of that array. -/
theorem flushed8_eq (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  funext y
  obtain ⟨r, j, rfl⟩ : ∃ (r : Fin 2000) (j : Fin 128), y = ix2 r j := ⟨y 0, y 1, eq_ix2 y⟩
  have hN : grid0.N = 100 := N_0
  have ht : t.val < grid0.N := t.isLt
  obtain ⟨T, hT⟩ : ∃ T : Fin 200000, T.val = t.val * 2000 + r.val := ⟨⟨t.val * 2000 + r.val, by omega⟩, rfl⟩
  have e := idx_facts t
  have he : ((cfg0.win 8).blk t).view.emb (ix2 r j) = (ix2 T j : S200000x128.Idx) := funext fun a => Fin.ext (by
    match a with
    | ⟨0, _⟩ => show win0_8.index t (0 : Fin 2) * 2000 + 1 * r.val = T.val; omega
    | ⟨1, _⟩ => show win0_8.index t (1 : Fin 2) * 128 + 1 * j.val = j.val; omega)
  have key := out8_spec (xs V c) (xp V c) (xo V c) (w1 V c) (b1 V c) (w2 V c) (b2 V c)
    (iblk0 V c 0 t) (iblk0 V c 1 t) (iblk0 V c 2 t) (iblk0 V c 3 t) (iblk0 V c 4 t) (iblk0 V c 5 t) (iblk0 V c 6 t) T r
    (blk0_row V c t r T hT) (blk1_row V c t r T hT) (blk2_row V c t r T hT) (blk3_at V c t) (blk4_at V c t)
    (blk5_at V c t) (blk6_at V c t) j
  exact key.trans (congrArg (G8 V c) he).symm

/-- An index of the array is in point t's block iff each coordinate is in the block's range on its axis. -/
theorem mem_blk8 (t : Fin cfg0.N) (i : S200000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v11_1).slice (win0_8.rect t)).set ↔ _
  rw [View.set_slice_whole, Rect.mem_set_unit]
  exact Iff.rfl

/-- Row r of the array is written by point r / 2000: the blocks tile the array. -/
theorem cover8 (i : S200000x128.Idx) :
    ∃ t : Fin cfg0.N, (cfg0.win 8).flush t = true ∧ i ∈ ((cfg0.win 8).blk t).view.set := by
  have hi0 : (i 0).val < 200000 := idx2_lt0 i
  have hi1 : (i 1).val < 128 := idx2_lt1 i
  have hN : grid0.N = 100 := N_0
  obtain ⟨t, ht⟩ : ∃ t : Fin cfg0.N, t.val = (i 0).val / 2000 := ⟨⟨(i 0).val / 2000, by show _ < grid0.N; omega⟩, rfl⟩
  have e := idx_facts t
  refine ⟨t, flush0_8 t, ?_⟩
  rw [mem_blk8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- The whole array after the first call. -/
theorem final8 (c : Dev nD) : (dat0 V c).arrAt 8 cfg0.N = G8 V c :=
  (dat0 V c).arrAt_eq_of_cover 8 (G8 V c) (fun t _ => flushed8_eq V c t) cover8

/-- The object-message array the first call leaves: row t, column j is output column 384 + j of the first network on edge t. -/
abbrev G9 (c : Dev nD) : S200000x256.Idx → EReal := fun i =>
  Spec.net1Out (xs V c) (xp V c) (xo V c) (w1 V c) (b1 V c) (w2 V c) (b2 V c) ⟨(i 0).val, idx2_lt0 i⟩
    ⟨384 + (i 1).val, by have := idx2_lt1 i; omega⟩

/-- What point t writes back to window 9 is block t of that array. -/
theorem flushed9_eq (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  funext y
  obtain ⟨r, j, rfl⟩ : ∃ (r : Fin 2000) (j : Fin 256), y = ix2 r j := ⟨y 0, y 1, eq_ix2 y⟩
  have hN : grid0.N = 100 := N_0
  have ht : t.val < grid0.N := t.isLt
  obtain ⟨T, hT⟩ : ∃ T : Fin 200000, T.val = t.val * 2000 + r.val := ⟨⟨t.val * 2000 + r.val, by omega⟩, rfl⟩
  have e := idx_facts t
  have he : ((cfg0.win 9).blk t).view.emb (ix2 r j) = (ix2 T j : S200000x256.Idx) := funext fun a => Fin.ext (by
    match a with
    | ⟨0, _⟩ => show win0_9.index t (0 : Fin 2) * 2000 + 1 * r.val = T.val; omega
    | ⟨1, _⟩ => show win0_9.index t (1 : Fin 2) * 256 + 1 * j.val = j.val; omega)
  have key := out9_spec (xs V c) (xp V c) (xo V c) (w1 V c) (b1 V c) (w2 V c) (b2 V c)
    (iblk0 V c 0 t) (iblk0 V c 1 t) (iblk0 V c 2 t) (iblk0 V c 3 t) (iblk0 V c 4 t) (iblk0 V c 5 t) (iblk0 V c 6 t) T r
    (blk0_row V c t r T hT) (blk1_row V c t r T hT) (blk2_row V c t r T hT) (blk3_at V c t) (blk4_at V c t)
    (blk5_at V c t) (blk6_at V c t) j
  exact key.trans (congrArg (G9 V c) he).symm

/-- An index of the array is in point t's block iff each coordinate is in the block's range on its axis. -/
theorem mem_blk9 (t : Fin cfg0.N) (i : S200000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v11_2).slice (win0_9.rect t)).set ↔ _
  rw [View.set_slice_whole, Rect.mem_set_unit]
  exact Iff.rfl

/-- Row r of the array is written by point r / 2000: the blocks tile the array. -/
theorem cover9 (i : S200000x256.Idx) :
    ∃ t : Fin cfg0.N, (cfg0.win 9).flush t = true ∧ i ∈ ((cfg0.win 9).blk t).view.set := by
  have hi0 : (i 0).val < 200000 := idx2_lt0 i
  have hi1 : (i 1).val < 256 := idx2_lt1 i
  have hN : grid0.N = 100 := N_0
  obtain ⟨t, ht⟩ : ∃ t : Fin cfg0.N, t.val = (i 0).val / 2000 := ⟨⟨(i 0).val / 2000, by show _ < grid0.N; omega⟩, rfl⟩
  have e := idx_facts t
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 256 ≤ (i 1).val ∧ (i 1).val < win0_9.index t (1 : Fin 2) * 256 + 256; omega

/-- The whole array after the first call. -/
theorem final9 (c : Dev nD) : (dat0 V c).arrAt 9 cfg0.N = G9 V c :=
  (dat0 V c).arrAt_eq_of_cover 9 (G9 V c) (fun t _ => flushed9_eq V c t) cover9

/-- The subject-message array after the first call: row t, column j is output column j of the first network. -/
theorem newS_at (c : Dev nD) (t : Fin 200000) (j : Fin 256) :
    ((dat0 V c).arrAt 7 cfg0.N : (⟨2, ![200000, 256]⟩ : Shape).Idx → EReal) (ix2 t j)
      = Spec.net1Out (xs V c) (xp V c) (xo V c) (w1 V c) (b1 V c) (w2 V c) (b2 V c) t ⟨j.val, by omega⟩ := by
  exact congrFun (final7 V c) (ix2 t j)

/-- The new-predicate array after the first call: row t, column j is output column 256 + j. -/
theorem newP_at (c : Dev nD) (t : Fin 200000) (j : Fin 128) :
    ((dat0 V c).arrAt 8 cfg0.N : (⟨2, ![200000, 128]⟩ : Shape).Idx → EReal) (ix2 t j)
      = Spec.net1Out (xs V c) (xp V c) (xo V c) (w1 V c) (b1 V c) (w2 V c) (b2 V c) t ⟨256 + j.val, by omega⟩ := by
  exact congrFun (final8 V c) (ix2 t j)

/-- The object-message array after the first call: row t, column j is output column 384 + j. -/
theorem newO_at (c : Dev nD) (t : Fin 200000) (j : Fin 256) :
    ((dat0 V c).arrAt 9 cfg0.N : (⟨2, ![200000, 256]⟩ : Shape).Idx → EReal) (ix2 t j)
      = Spec.net1Out (xs V c) (xp V c) (xo V c) (w1 V c) (b1 V c) (w2 V c) (b2 V c) t ⟨384 + j.val, by omega⟩ := by
  exact congrFun (final9 V c) (ix2 t j)

end Cert.KernelIdeal.Region0

end
-- ==== Proof.Region1.lean ====
import proofs.«428517_j6459630813308_3_alg».proof.Proof.Gen.KernelIdeal.Frame
import proofs.«428517_j6459630813308_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-!
  The second call works on 25 blocks of 2000 object rows. At each block it divides the pooled sums by the count
  (at least 1.0), multiplies by the first weight, adds the first bias row, clamps below at 0.0, multiplies by the
  second weight, adds the second bias row and clamps again. Below: that arithmetic read at one entry of a block;
  then where each block sits in its array; then the array the 25 write-backs leave.
-/

/-! ## The two block products: which entries of the operands an entry of the product reads -/

theorem lhsA_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsA_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsA_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsA_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, k) of the first block product is the sum over i of row p of the left block times column k of the right. -/
theorem mmA_apply (l : FVec Ideal S2000x256 .bf16) (r : FVec Ideal S256x256 .bf16) (p : Fin 2000) (k : Fin 256) :
    matmul dot_S2000x256_S256x256_S2000x256_1_0_0_1_n_n none l r (constant (F := Ideal) S2000x256 .f32 0x00000000#32) (ix2 p k)
      = ∑ i : Fin 256, l (ix2 p i) * r (ix2 i k) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun i _ => ?_
  have hk := ValueIdx.contrEquiv1_symm_val dot_S2000x256_S256x256_S2000x256_1_0_0_1_n_n 256 rfl rfl i
  have el : dot_S2000x256_S256x256_S2000x256_1_0_0_1_n_n.lhsIdx (ix2 p k) ((ValueIdx.contrEquiv1 dot_S2000x256_S256x256_S2000x256_1_0_0_1_n_n 256 rfl rfl).symm i) = ix2 p i := funext fun a => Fin.ext (by
    match a with
    | ⟨0, _⟩ => exact lhsA_0 _ _
    | ⟨1, _⟩ => exact (lhsA_1 _ _).trans hk)
  have er : dot_S2000x256_S256x256_S2000x256_1_0_0_1_n_n.rhsIdx (ix2 p k) ((ValueIdx.contrEquiv1 dot_S2000x256_S256x256_S2000x256_1_0_0_1_n_n 256 rfl rfl).symm i) = ix2 i k := funext fun a => Fin.ext (by
    match a with
    | ⟨0, _⟩ => exact (rhsA_0 _ _).trans hk
    | ⟨1, _⟩ => exact rhsA_1 _ _)
  rw [el, er]

theorem lhsB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, k) of the second block product is the sum over i of row p of the left block times column k of the right. -/
theorem mmB_apply (l : FVec Ideal S2000x256 .bf16) (r : FVec Ideal S256x128 .bf16) (p : Fin 2000) (k : Fin 128) :
    matmul dot_S2000x256_S256x128_S2000x128_1_0_0_1_n_n none l r (constant (F := Ideal) S2000x128 .f32 0x00000000#32) (ix2 p k)
      = ∑ i : Fin 256, l (ix2 p i) * r (ix2 i k) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun i _ => ?_
  have hk := ValueIdx.contrEquiv1_symm_val dot_S2000x256_S256x128_S2000x128_1_0_0_1_n_n 256 rfl rfl i
  have el : dot_S2000x256_S256x128_S2000x128_1_0_0_1_n_n.lhsIdx (ix2 p k) ((ValueIdx.contrEquiv1 dot_S2000x256_S256x128_S2000x128_1_0_0_1_n_n 256 rfl rfl).symm i) = ix2 p i := funext fun a => Fin.ext (by
    match a with
    | ⟨0, _⟩ => exact lhsB_0 _ _
    | ⟨1, _⟩ => exact (lhsB_1 _ _).trans hk)
  have er : dot_S2000x256_S256x128_S2000x128_1_0_0_1_n_n.rhsIdx (ix2 p k) ((ValueIdx.contrEquiv1 dot_S2000x256_S256x128_S2000x128_1_0_0_1_n_n 256 rfl rfl).symm i) = ix2 i k := funext fun a => Fin.ext (by
    match a with
    | ⟨0, _⟩ => exact (rhsB_0 _ _).trans hk
    | ⟨1, _⟩ => exact rhsB_1 _ _)
  rw [el, er]

/-! ## The layout operations of the body, read at an entry -/

/-- A column [2000, 1] spread over 256 columns reads, at (p, c), the column's entry of row p. -/
theorem spreadCol_apply (v : (⟨2, ![2000, 1]⟩ : Shape).Idx → EReal) (h : S2000x1.Broadcasts S2000x256) (p : Fin 2000) (c : Fin 256) :
    broadcastTo S2000x256 v h (ix2 p c) = v (ix2 p (0 : Fin 1)) := by
  refine broadcastTo_apply v h (ix2 p c) (ix2 p (0 : Fin 1)) fun ax => ?_
  match ax with
  | ⟨0, _⟩ =>
    show p.val = if (2000 : Nat) = 1 then 0 else p.val
    rw [if_neg (by decide)]
  | ⟨1, _⟩ =>
    show 0 = if (1 : Nat) = 1 then 0 else c.val
    rw [if_pos rfl]

/-! ## The body's arithmetic, stage by stage -/

/-- The pooled block over the count column (at least 1.0), entry by entry. -/
def stage1 (v0 : Vec Ideal S2000x256 .f32) (v2 : Vec Ideal S2000x1 .f32) : FVec Ideal S2000x256 .bf16 :=
  truncf .bf16 (divf (shapeCast S2000x256 v0 shapeCasts_S2000x256_S2000x256 : FVec Ideal S2000x256 .f32)
    (broadcastTo S2000x256 (maximumf (shapeCast S2000x1 v2 shapeCasts_S2000x1_S2000x1 : FVec Ideal S2000x1 .f32) (broadcast S2000x1 (Scalar.ofBits .f32 0x3F800000#32))) broadcasts_S2000x1_S2000x256)) bitsLt_bf16_f32

/-- The first layer on a block: product with the weight, bias row added, clamped below at 0.0. -/
def stage2 (a : FVec Ideal S2000x256 .bf16) (v9 : Vec Ideal S256x256 .bf16) (v12 : Vec Ideal S1x256 .f32) : FVec Ideal S2000x256 .bf16 :=
  truncf .bf16 (maximumf (addf (matmul dot_S2000x256_S256x256_S2000x256_1_0_0_1_n_n none a (shapeCast S256x256 v9 shapeCasts_S256x256_S256x256 : FVec Ideal S256x256 .bf16) (constant S2000x256 .f32 0x00000000#32))
      (broadcastTo S2000x256 (shapeCast S1x256 v12 shapeCasts_S1x256_S1x256 : FVec Ideal S1x256 .f32) broadcasts_S1x256_S2000x256))
    (broadcast S2000x256 (Scalar.ofBits .f32 0x00000000#32))) bitsLt_bf16_f32

/-- The second layer on a block. -/
def stage3 (a : FVec Ideal S2000x256 .bf16) (v19 : Vec Ideal S256x128 .bf16) (v22 : Vec Ideal S1x128 .f32) : FVec Ideal S2000x128 .f32 :=
  maximumf (addf (matmul dot_S2000x256_S256x128_S2000x128_1_0_0_1_n_n none a (shapeCast S256x128 v19 shapeCasts_S256x128_S256x128 : FVec Ideal S256x128 .bf16) (constant S2000x128 .f32 0x00000000#32))
      (broadcastTo S2000x128 (shapeCast S1x128 v22 shapeCasts_S1x128_S1x128 : FVec Ideal S1x128 .f32) broadcasts_S1x128_S2000x128))
    (broadcast S2000x128 (Scalar.ofBits .f32 0x00000000#32))

/-- The body's result is the three stages composed. -/
theorem pay_stages (v0 : Vec Ideal S2000x256 .f32) (v2 : Vec Ideal S2000x1 .f32) (v9 : Vec Ideal S256x256 .bf16) (v12 : Vec Ideal S1x256 .f32)
    (v19 : Vec Ideal S256x128 .bf16) (v22 : Vec Ideal S1x128 .f32) :
    k1_pay1 (F := Ideal) v0 v2 v9 v12 v19 v22 = stage3 (stage2 (stage1 v0 v2) v9 v12) v19 v22 := rfl

theorem stage1_apply (v0 : Vec Ideal S2000x256 .f32) (v2 : Vec Ideal S2000x1 .f32) (p : Fin 2000) (i : Fin 256) :
    stage1 v0 v2 (ix2 p i) = Ideal.div (v0 (ix2 p i)) (max (v2 (ix2 p (0 : Fin 1))) Spec.oneW) := by
  unfold stage1
  rw [truncf_apply, divf_apply, shapeCast_self, spreadCol_apply, maximumf_apply, shapeCast_self, broadcast_apply]
  rfl

theorem stage2_apply (a : FVec Ideal S2000x256 .bf16) (v9 : Vec Ideal S256x256 .bf16) (v12 : Vec Ideal S1x256 .f32) (p : Fin 2000) (k : Fin 256) :
    stage2 a v9 v12 (ix2 p k) = max ((∑ i : Fin 256, a (ix2 p i) * v9 (ix2 i k)) + v12 (ix2 (0 : Fin 1) k)) Spec.zeroW := by
  unfold stage2
  rw [truncf_apply, maximumf_apply, addf_apply, mmA_apply, shapeCast_self, shapeCast_self, broadcastTo_1b_ab_apply, broadcast_apply]
  rfl

theorem stage3_apply (a : FVec Ideal S2000x256 .bf16) (v19 : Vec Ideal S256x128 .bf16) (v22 : Vec Ideal S1x128 .f32) (p : Fin 2000) (j : Fin 128) :
    stage3 a v19 v22 (ix2 p j) = max ((∑ k : Fin 256, a (ix2 p k) * v19 (ix2 k j)) + v22 (ix2 (0 : Fin 1) j)) Spec.zeroW := by
  unfold stage3
  rw [maximumf_apply, addf_apply, mmB_apply, shapeCast_self, shapeCast_self, broadcastTo_1b_ab_apply, broadcast_apply]
  rfl

/-- THE BODY AT AN ENTRY: row p, column j of the result block from row p of the pooled and count blocks and the
    whole weights and bias rows. -/
theorem pay_apply (v0 : Vec Ideal S2000x256 .f32) (v2 : Vec Ideal S2000x1 .f32) (v9 : Vec Ideal S256x256 .bf16) (v12 : Vec Ideal S1x256 .f32)
    (v19 : Vec Ideal S256x128 .bf16) (v22 : Vec Ideal S1x128 .f32) (p : Fin 2000) (j : Fin 128) :
    k1_pay1 (F := Ideal) v0 v2 v9 v12 v19 v22 (ix2 p j)
      = max ((∑ k : Fin 256,
          max ((∑ i : Fin 256, Ideal.div (v0 (ix2 p i)) (max (v2 (ix2 p (0 : Fin 1))) Spec.oneW) * v9 (ix2 i k)) + v12 (ix2 (0 : Fin 1) k)) Spec.zeroW
            * v19 (ix2 k j)) + v22 (ix2 (0 : Fin 1) j)) Spec.zeroW := by
  rw [pay_stages, stage3_apply]
  simp only [stage2_apply, stage1_apply]

variable (V : (c : Dev nD) → (b : Ref sig .tc) → Buf (Elt Ideal) ((c : Thread nD τ).loc b))

/-- The second call's six input arrays as the call finds them, read by coordinates. -/
abbrev pooled (c : Dev nD) (o : Fin 50000) (i : Fin 256) : EReal :=
  (V c (Pipeline.arrRef spec1 0) : (⟨2, ![50000, 256]⟩ : Shape).Idx → EReal) (ix2 o i)
abbrev count (c : Dev nD) (o : Fin 50000) : EReal :=
  (V c (Pipeline.arrRef spec1 1) : (⟨2, ![50000, 1]⟩ : Shape).Idx → EReal) (ix2 o 0)
abbrev w3 (c : Dev nD) (i : Fin 256) (k : Fin 256) : EReal :=
  (V c (Pipeline.arrRef spec1 2) : (⟨2, ![256, 256]⟩ : Shape).Idx → EReal) (ix2 i k)
abbrev b3 (c : Dev nD) (k : Fin 256) : EReal :=
  (V c (Pipeline.arrRef spec1 3) : (⟨2, ![1, 256]⟩ : Shape).Idx → EReal) (ix2 0 k)
abbrev w4 (c : Dev nD) (k : Fin 256) (j : Fin 128) : EReal :=
  (V c (Pipeline.arrRef spec1 4) : (⟨2, ![256, 128]⟩ : Shape).Idx → EReal) (ix2 k j)
abbrev b4 (c : Dev nD) (j : Fin 128) : EReal :=
  (V c (Pipeline.arrRef spec1 5) : (⟨2, ![1, 128]⟩ : Shape).Idx → EReal) (ix2 0 j)

/-! ## Where each window's block sits at a grid point -/

theorem hz : (![0, 0] : Fin 2 → Nat) = fun _ => 0 := funext fun a => by fin_cases a <;> rfl

/-- The block numbers at each of the 25 grid points, by evaluation: the pooled sums, the counts and the result are
    at block row t, block column 0; the two weights and the two bias rows are at block (0, 0), that is, whole. -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The object row that row p of the block at point t is. -/
def rowAt (t : Fin cfg1.N) (p : Fin 2000) : Fin 50000 :=
  ⟨t.val * 2000 + p.val, by have h : t.val < 25 := N_1 ▸ t.isLt; have := p.isLt; omega⟩

/-- Row p of the pooled block at point t is row 2000 t + p of the pooled array. -/
theorem blk0_at (c : Dev nD) (t : Fin cfg1.N) (p : Fin 2000) (i : Fin 256) :
    (iblk1 V c 0 t : S2000x256.Idx → EReal) (ix2 p i) = pooled V c (rowAt t p) i := by
  obtain ⟨e00, e01, -⟩ := blockIdx t
  show (V c (Pipeline.arrRef spec1 0) : S50000x256.Idx → EReal) (((cfg1.win 0).blk t).view.emb (ix2 p i)) = (V c (Pipeline.arrRef spec1 0) : S50000x256.Idx → EReal) (ix2 (rowAt t p) i)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * i.val = i.val; omega

/-- Row p of the count block at point t is row 2000 t + p of the count column. -/
theorem blk1_at (c : Dev nD) (t : Fin cfg1.N) (p : Fin 2000) :
    (iblk1 V c 1 t : S2000x1.Idx → EReal) (ix2 p (0 : Fin 1)) = count V c (rowAt t p) := by
  obtain ⟨-, -, e10, e11, -⟩ := blockIdx t
  show (V c (Pipeline.arrRef spec1 1) : S50000x1.Idx → EReal) (((cfg1.win 1).blk t).view.emb (ix2 p (0 : Fin 1))) = (V c (Pipeline.arrRef spec1 1) : S50000x1.Idx → EReal) (ix2 (rowAt t p) (0 : Fin 1))
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

/-- The first weight's block is the whole weight at every point. -/
theorem blk2_at (c : Dev nD) (t : Fin cfg1.N) (i : Fin 256) (k : Fin 256) :
    (iblk1 V c 2 t : S256x256.Idx → EReal) (ix2 i k) = w3 V c i k := by
  obtain ⟨-, -, -, -, e20, e21, -⟩ := blockIdx t
  show (V c (Pipeline.arrRef spec1 2) : S256x256.Idx → EReal) (((cfg1.win 2).blk t).view.emb (ix2 i k)) = (V c (Pipeline.arrRef spec1 2) : S256x256.Idx → EReal) (ix2 i k)
  refine congrArg _ (funext fun a => Fin.ext ?_)
  match a with
  | ⟨0, _⟩ => show win1_2.index t (0 : Fin 2) * 256 + 1 * i.val = i.val; omega
  | ⟨1, _⟩ => show win1_2.index t (1 : Fin 2) * 256 + 1 * k.val = k.val; omega

/-- The first bias row's block is the whole row. -/
theorem blk3_at (c : Dev nD) (t : Fin cfg1.N) (k : Fin 256) :
    (iblk1 V c 3 t : S1x256.Idx → EReal) (ix2 (0 : Fin 1) k) = b3 V c k := by
  obtain ⟨-, -, -, -, -, -, e30, e31, -⟩ := blockIdx t
  show (V c (Pipeline.arrRef spec1 3) : S1x256.Idx → EReal) (((cfg1.win 3).blk t).view.emb (ix2 (0 : Fin 1) k)) = (V c (Pipeline.arrRef spec1 3) : S1x256.Idx → EReal) (ix2 (0 : Fin 1) k)
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * k.val = k.val; omega

/-- The second weight's block is the whole weight. -/
theorem blk4_at (c : Dev nD) (t : Fin cfg1.N) (k : Fin 256) (j : Fin 128) :
    (iblk1 V c 4 t : S256x128.Idx → EReal) (ix2 k j) = w4 V c k j := by
  obtain ⟨-, -, -, -, -, -, -, -, e40, e41, -⟩ := blockIdx t
  show (V c (Pipeline.arrRef spec1 4) : S256x128.Idx → EReal) (((cfg1.win 4).blk t).view.emb (ix2 k j)) = (V c (Pipeline.arrRef spec1 4) : S256x128.Idx → EReal) (ix2 k j)
  refine congrArg _ (funext fun a => Fin.ext ?_)
  match a with
  | ⟨0, _⟩ => show win1_4.index t (0 : Fin 2) * 256 + 1 * k.val = k.val; omega
  | ⟨1, _⟩ => show win1_4.index t (1 : Fin 2) * 128 + 1 * j.val = j.val; omega

/-- The second bias row's block is the whole row. -/
theorem blk5_at (c : Dev nD) (t : Fin cfg1.N) (j : Fin 128) :
    (iblk1 V c 5 t : S1x128.Idx → EReal) (ix2 (0 : Fin 1) j) = b4 V c j := by
  obtain ⟨-, -, -, -, -, -, -, -, -, -, e50, e51, -⟩ := blockIdx t
  show (V c (Pipeline.arrRef spec1 5) : S1x128.Idx → EReal) (((cfg1.win 5).blk t).view.emb (ix2 (0 : Fin 1) j)) = (V c (Pipeline.arrRef spec1 5) : S1x128.Idx → EReal) (ix2 (0 : Fin 1) j)
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- Entry (p, q) of the result block at point t sits at row 2000 t + p, column q of the result array. -/
theorem blk6_emb (t : Fin cfg1.N) (p : Fin 2000) (q : Fin 128) :
    (((cfg1.win 6).blk t).view.emb (ix2 p q) : S50000x128.Idx) = ix2 (rowAt t p) q := by
  obtain ⟨-, -, -, -, -, -, -, -, -, -, -, -, e60, e61⟩ := blockIdx t
  refine funext fun a => Fin.ext ?_
  match a with
  | ⟨0, _⟩ => show win1_6.index t (0 : Fin 2) * 2000 + 1 * p.val = t.val * 2000 + p.val; omega
  | ⟨1, _⟩ => show win1_6.index t (1 : Fin 2) * 128 + 1 * q.val = q.val; omega

/-! ## The whole result array -/

/-- What the result array ends holding: row o, column j is output column j of the second network on object o. -/
def newObjArr (c : Dev nD) : S50000x128.Idx → EReal := fun i =>
  Spec.net2Out (pooled V c) (count V c) (w3 V c) (b3 V c) (w4 V c) (b4 V c) (i 0) (i 1)

theorem newObjArr_ix2 (c : Dev nD) (o : Fin 50000) (j : Fin 128) :
    newObjArr V c (ix2 o j) = Spec.net2Out (pooled V c) (count V c) (w3 V c) (b3 V c) (w4 V c) (b4 V c) o j := rfl

/-- The block written back at point t holds the second network's outputs for object rows 2000 t … 2000 t + 1999:
    entry (p, q) of the body's result reads row p of the pooled and count blocks, which is row 2000 t + p of their
    arrays, and all of the two weights and the two bias rows. -/
theorem flushed_eq (c : Dev nD) (t : Fin cfg1.N) :
    (dat1 V c).flushed 6 t = ((cfg1.win 6).blk t).view.read (Elt Ideal) (newObjArr V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz, View.ld_unit_zero (S := S256x256) hz,
    View.ld_unit_zero (S := S1x256) hz, View.ld_unit_zero (S := S256x128) hz, View.ld_unit_zero (S := S1x128) hz]
  funext y
  obtain ⟨p, q, rfl⟩ : ∃ (p : Fin 2000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
      = newObjArr V c (((cfg1.win 6).blk t).view.emb (ix2 p q))
  refine (pay_apply (iblk1 V c 0 t) (iblk1 V c 1 t) (iblk1 V c 2 t) (iblk1 V c 3 t) (iblk1 V c 4 t) (iblk1 V c 5 t) p q).trans ?_
  rw [blk6_emb t p q, newObjArr_ix2]
  unfold Spec.net2Out
  simp only [blk0_at V c t, blk1_at V c t, blk2_at V c t, blk3_at V c t, blk4_at V c t, blk5_at V c t]

/-! ## The blocks cover the array -/

/-- Membership in the result block of point t, by coordinates: 2000 rows from 2000 times the block's row number,
    128 columns from 128 times its column number. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v31).slice (win1_6.rect t)).set ↔ _
  rw [View.set_slice_whole, Rect.mem_set_unit]
  exact Iff.rfl

/-- Row r of the result array is written back by point r / 2000. -/
theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, -, -, -, -, e60, e61⟩ := blockIdx t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The new-object array after the second call: row o, column j is output column j of the second network. -/
theorem newObj_at (c : Dev nD) (o : Fin 50000) (j : Fin 128) :
    ((dat1 V c).arrAt 6 cfg1.N : (⟨2, ![50000, 128]⟩ : Shape).Idx → EReal) (ix2 o j)
      = Spec.net2Out (pooled V c) (count V c) (w3 V c) (b3 V c) (w4 V c) (b4 V c) o j := by
  have h := (dat1 V c).arrAt_eq_of_cover 6 (newObjArr V c) (fun t _ => flushed_eq V c t) covered
  exact (congrFun h (ix2 o j)).trans (newObjArr_ix2 V c o j)

end Cert.KernelIdeal.Region1

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.HostIn0Take.lean ====
/-
  THE ROW TAKE WITH A FILL, READ AT ONE ELEMENT. The host program reads rows of a [50000 × 128] table at a vector of
  200000 row numbers in three moves: a negative number is first moved up by 50000; the row is then gathered (the
  gather itself clamps the number into the table); and where the moved number is still outside 0..49999 the gathered
  row is replaced by zeros. When every row number already lies in 0..49999 nothing is moved, the range test holds in
  every row, no row is replaced, and the clamp does nothing: row t of the result is the table's row named by number t.
-/
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Reduce
import proofs.«428517_j6459630813308_3_alg».proof.Proof.LibGatherScatter
import proofs.«428517_j6459630813308_3_alg».proof.Proof.Spec

noncomputable section

namespace Cert.HostTake

open Idealize.ShloMosaic Idealize.ShloMosaic.ValueIdx Idealize.ShloMosaic.StableHlo.Predicate

/-! ## Words in the table's range -/

/-- A word that reads signed as a number of 0..49999 is not below zero … -/
theorem slt_zero_of_inRange (w : BitVec 32) (h0 : 0 ≤ w.toInt) : IntOp.cmpi .slt w 0#32 = 0#1 := by
  have hz : (0#32 : BitVec 32).toInt = 0 := by decide
  have hb : w.slt 0#32 = false := by
    simp only [BitVec.slt, hz, decide_eq_false_iff_not]; omega
  show BitVec.ofBool (w.slt 0#32) = 0#1
  rw [hb]; rfl

/-- … is at least zero … -/
theorem sge_zero_of_inRange (w : BitVec 32) (h0 : 0 ≤ w.toInt) : IntOp.cmpi .sge w 0#32 = 1#1 := by
  have hz : (0#32 : BitVec 32).toInt = 0 := by decide
  have hb : (0#32 : BitVec 32).sle w = true := by
    simp only [BitVec.sle, hz, decide_eq_true_eq]; exact h0
  show BitVec.ofBool ((0#32 : BitVec 32).sle w) = 1#1
  rw [hb]; rfl

/-- … and at most 49999. -/
theorem sle_last_of_inRange (w : BitVec 32) (h1 : w.toInt < 50000) : IntOp.cmpi .sle w 49999#32 = 1#1 := by
  have hz : (49999#32 : BitVec 32).toInt = 49999 := by decide
  have hb : w.sle 49999#32 = true := by
    simp only [BitVec.sle, hz, decide_eq_true_eq]; omega
  show BitVec.ofBool (w.sle 49999#32) = 1#1
  rw [hb]; rfl

/-! ## One column of the edge table as a vector -/

/-- Column k of a [200000 × 2] table, cut out as a [200000 × 1] column and flattened, reads at t the table's (t, k). -/
theorem column_apply {α : Type} (o : Nat) (X : (⟨2, ![200000, 2]⟩ : Shape).Idx → α)
    (hs : (⟨2, ![200000, 2]⟩ : Shape).Slices ![0, o] ⟨2, ![200000, 1]⟩)
    (hc : (⟨2, ![200000, 1]⟩ : Shape).ShapeCasts ⟨1, ![200000]⟩) (k : Fin 2) (hk : k.val = o) (t : Fin 200000) :
    shapeCast ⟨1, ![200000]⟩ (extractStridedSlice ⟨2, ![200000, 1]⟩ ![0, o] X hs) hc (ix1 t) = X (ix2 t k) := by
  rw [shapeCast_apply _ hc (ix1 t) (ix2 t (0 : Fin 1)) (by
    rw [Shape.rowMajor_val_two, Shape.rowMajor_val_one]
    show t.val * 1 + 0 = t.val
    omega)]
  exact slice2_axis1_apply o X hs t (0 : Fin 1) k (by rw [hk]; rfl)

/-! ## A conjunction of ones -/

/-- An `and`-reduction of an array of ones from the word one is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (List.filter (fun i => decide (h.drop i = j)) (List.map s.rowMajor.symm (List.finRange s.numel))) = l
  induction l with
  | nil => rfl
  | cons a l ih =>
    rw [List.foldl_cons, hx a, show IntOp.andi 1#1 1#1 = (1#1 : BitVec 1) from by decide]
    exact ih

/-! ## The take -/

section Take

variable (b0 : (⟨0, ![]⟩ : Shape).BroadcastsInDim ⟨1, ![200000]⟩ (![] : Fin 0 → Fin 1))
  (b1 : (⟨1, ![200000]⟩ : Shape).BroadcastsInDim ⟨2, ![200000, 1]⟩ (![0] : Fin 1 → Fin 2))
  (b2 : (⟨0, ![]⟩ : Shape).BroadcastsInDim ⟨2, ![200000, 1]⟩ (![] : Fin 0 → Fin 2))
  (b3 : (⟨1, ![1]⟩ : Shape).BroadcastsInDim ⟨2, ![1, 1]⟩ (![1] : Fin 1 → Fin 2))
  (b4 : (⟨2, ![1, 1]⟩ : Shape).BroadcastsInDim ⟨2, ![200000, 1]⟩ (![0, 1] : Fin 2 → Fin 2))
  (r : (⟨2, ![200000, 1]⟩ : Shape).ReducesTo [1] ⟨1, ![200000]⟩)
  (hu : 0 < (⟨0, ![]⟩ : Shape).numel)
  (b5 : (⟨1, ![200000]⟩ : Shape).BroadcastsInDim ⟨2, ![200000, 128]⟩ (![0] : Fin 1 → Fin 2))
  (b6 : (⟨0, ![]⟩ : Shape).BroadcastsInDim ⟨2, ![200000, 128]⟩ (![] : Fin 0 → Fin 2))
  (d : GatherDims ⟨2, ![50000, 128]⟩ ⟨2, ![200000, 1]⟩ ⟨2, ![200000, 128]⟩)

/-- The row numbers with 50000 added to the negative ones. -/
def wrapped (col : IVec ⟨1, ![200000]⟩ 32) : IVec ⟨1, ![200000]⟩ 32 :=
  select (cmpi .slt col (broadcastInDim ⟨1, ![200000]⟩ ![] b0 (constantI ⟨0, ![]⟩ 32 0#32)))
    (addi col (broadcastInDim ⟨1, ![200000]⟩ ![] b0 (constantI ⟨0, ![]⟩ 32 50000#32))) col

/-- The same as a column. -/
def colm (col : IVec ⟨1, ![200000]⟩ 32) : IVec ⟨2, ![200000, 1]⟩ 32 :=
  broadcastInDim ⟨2, ![200000, 1]⟩ ![0] b1 (wrapped b0 col)

/-- Row by row: is the moved number inside 0..49999? -/
def inside (col : IVec ⟨1, ![200000]⟩ 32) : IVec ⟨1, ![200000]⟩ 1 :=
  Host.reduce IntOp.andi
    (andi (cmpi .sge (colm b0 b1 col) (broadcastInDim ⟨2, ![200000, 1]⟩ ![] b2 (constantI ⟨0, ![]⟩ 32 0#32)))
      (cmpi .sle (colm b0 b1 col)
        (broadcastInDim ⟨2, ![200000, 1]⟩ ![0, 1] b4 (broadcastInDim ⟨2, ![1, 1]⟩ ![1] b3 (constantI ⟨1, ![1]⟩ 32 49999#32)))))
    (constantI ⟨0, ![]⟩ 1 1#1) r hu

/-- The take: the gathered rows where the moved number is inside the table, zeros elsewhere. -/
def takeFill (x : FVec Ideal ⟨2, ![50000, 128]⟩ .bf16) (col : IVec ⟨1, ![200000]⟩ 32) : FVec Ideal ⟨2, ![200000, 128]⟩ .bf16 :=
  select (broadcastInDim ⟨2, ![200000, 128]⟩ ![0] b5 (inside b0 b1 b2 b3 b4 r hu col))
    (Host.gather d x (colm b0 b1 col))
    (broadcastInDim ⟨2, ![200000, 128]⟩ ![] b6 (constant (F := Ideal) ⟨0, ![]⟩ .bf16 0x0000#16))

variable (col : IVec ⟨1, ![200000]⟩ 32) (hcol : ∀ t : Fin 200000, 0 ≤ (col (ix1 t)).toInt ∧ (col (ix1 t)).toInt < 50000)

include hcol

/-- A number that is not negative is not moved. -/
theorem wrapped_apply (t : Fin 200000) : wrapped b0 col (ix1 t) = col (ix1 t) := by
  show Scalar.select (IntOp.cmpi .slt (col (ix1 t)) 0#32) _ (col (ix1 t)) = col (ix1 t)
  rw [slt_zero_of_inRange _ (hcol t).1, select_zero]

theorem colm_apply (t : Fin 200000) : colm b0 b1 col (ixP t) = col (ix1 t) := by
  unfold colm
  rw [bcast_col1 b1 (wrapped b0 col) t, RowOps.ofFin_eq_ix1]
  exact wrapped_apply b0 col hcol t

/-- The range test holds in every row. -/
theorem inside_apply (t : Fin 200000) : inside b0 b1 b2 b3 b4 r hu col (ix1 t) = 1#1 := by
  unfold inside
  refine reduce_andi_ones _ _ r hu (fun i => ?_) rfl _
  have hi : i = ixP (i 0) := by
    funext a
    match a with
    | ⟨0, _⟩ => rfl
    | ⟨1, _⟩ => exact Fin.ext (Nat.lt_one_iff.mp (show (i 1).val < 1 from (i 1).isLt))
  rw [hi]
  show IntOp.andi (IntOp.cmpi .sge (colm b0 b1 col (ixP (i 0))) 0#32) (IntOp.cmpi .sle (colm b0 b1 col (ixP (i 0))) 49999#32) = 1#1
  rw [colm_apply b0 b1 col hcol (i 0), sge_zero_of_inRange _ (hcol (i 0)).1, sle_last_of_inRange _ (hcol (i 0)).2]
  decide

/-- THE TAKE AT ONE ELEMENT: row t is the table's row named by number t. -/
theorem takeFill_apply (hoff : d.offsetDims = [1]) (hcoll : d.collapsedSliceDims = [0]) (hob : d.operandBatchingDims = [])
    (hsim : d.startIndexMap = [0]) (hivd : d.indexVectorDim = 1) (hss : d.sliceSizes = ![1, 128])
    (x : FVec Ideal ⟨2, ![50000, 128]⟩ .bf16) (t : Fin 200000) (i : Fin 128) :
    takeFill b0 b1 b2 b3 b4 r hu b5 b6 d x col (ix2 t i) = x (ix2 (Spec.row (col (ix1 t))) i) := by
  unfold takeFill
  rw [select_apply]
  have hm : broadcastInDim ⟨2, ![200000, 128]⟩ ![0] b5 (inside b0 b1 b2 b3 b4 r hu col) (ix2 t i) = 1#1 := by
    rw [broadcastInDim_apply ![0] b5 _ (ix2 t i) (ix1 t) (fun a => by
      match a with
      | ⟨0, _⟩ => rfl)]
    exact inside_apply b0 b1 b2 b3 b4 r hu col hcol t
  rw [hm, select_one, RowOps.gather_rows d hoff hcoll hob hsim hivd hss x (colm b0 b1 col) t i (by decide)]
  refine congrArg x (congrArg (fun r => ix2 r i) (Fin.ext ?_))
  show min (colm b0 b1 col (ixP t)).toInt.toNat (50000 - 1) = min (col (ix1 t)).toInt.toNat 49999
  rw [colm_apply b0 b1 col hcol t]

end Take

end Cert.HostTake

end
-- ==== Proof.HostIn0.lean ====
/-
  WHAT THE FIRST CALL FINDS IN ITS SEVEN INPUT ARRAYS, as functions of the program's arguments.

  The subject vectors and the object vectors are rows of the object table taken at the two columns of the edge table;
  the take adds 50000 to a negative row number, gathers (clamping into the table) and writes zeros where the number is
  still outside the table. With every endpoint a row number of the table none of the three does anything, and row t is
  the table's row named by the endpoint. The predicate vectors are the second argument as given; the two weights only
  change format, the identity on the extended reals; the two biases only gain a leading axis of extent one.
-/
import proofs.«428517_j6459630813308_3_alg».proof.Proof.Gen.KernelIdeal.Frame
import proofs.«428517_j6459630813308_3_alg».proof.Proof.Spec
import Idealize.ShloMosaic.Lib.ValueLayout
import proofs.«428517_j6459630813308_3_alg».proof.Proof.HostIn0Take
set_option maxRecDepth 16384

open scoped BigOperators

noncomputable section

namespace Cert.KernelIdeal.HostIn0

open Cert.KernelIdeal Cert.KernelIdeal.Gen Idealize.ShloMosaic Idealize.ShloMosaic.TcCoe Idealize.ShloMosaic.ValueIdx
open Idealize.SL.Sem
open Idealize.ShloMosaic.Pipeline (Dat Cfg Window)
variable (m : (ℓ : Loc nD τ sig) → Buf (Elt Ideal) ℓ) (ρ : Dev nD → PrngReg)

/-! ## The five arrays no row take feeds

Each is one host operation away from an argument: the two weights change format (the identity on the extended reals),
the two biases gain a leading unit axis, and the predicate vectors are the second argument untouched. -/

/-- The first layer's weight array as the call finds it: the fourth argument. -/
theorem W4_v7 (c : Dev nD) :
    (W4 m ρ c (Proc.devRef .tc main_v7) : (⟨2, ![384, 256]⟩ : Shape).Idx → EReal)
      = (m ((c : Thread nD τ).loc main_arg3) : (⟨2, ![384, 256]⟩ : Shape).Idx → EReal) := by
  show StableHlo.after hostOps0_3 _ (Proc.devRef .tc main_v7) = _
  after_results
  rfl

/-- The second layer's weight array: the sixth argument. -/
theorem W4_v8 (c : Dev nD) :
    (W4 m ρ c (Proc.devRef .tc main_v8) : (⟨2, ![256, 640]⟩ : Shape).Idx → EReal)
      = (m ((c : Thread nD τ).loc main_arg5) : (⟨2, ![256, 640]⟩ : Shape).Idx → EReal) := by
  show StableHlo.after hostOps0_3 _ (Proc.devRef .tc main_v8) = _
  after_results
  rfl

/-- The first layer's bias array: the fifth argument laid out as one row. -/
theorem W4_v9 (c : Dev nD) :
    (W4 m ρ c (Proc.devRef .tc main_v9) : (⟨2, ![1, 256]⟩ : Shape).Idx → EReal)
      = shapeCast ⟨2, ![1, 256]⟩ (m ((c : Thread nD τ).loc main_arg4) : (⟨1, ![256]⟩ : Shape).Idx → EReal) shapeCasts_S256_S1x256 := by
  show StableHlo.after hostOps0_3 _ (Proc.devRef .tc main_v9) = _
  after_results
  rfl

/-- The second layer's bias array: the seventh argument laid out as one row. -/
theorem W4_v10 (c : Dev nD) :
    (W4 m ρ c (Proc.devRef .tc main_v10) : (⟨2, ![1, 640]⟩ : Shape).Idx → EReal)
      = shapeCast ⟨2, ![1, 640]⟩ (m ((c : Thread nD τ).loc main_arg6) : (⟨1, ![640]⟩ : Shape).Idx → EReal) shapeCasts_S640_S1x640 := by
  show StableHlo.after hostOps0_3 _ (Proc.devRef .tc main_v10) = _
  after_results
  rfl

/-- No host operation before the call writes the second argument. -/
theorem W4_arg1 (c : Dev nD) :
    W4 m ρ c (Proc.devRef .tc main_arg1) = m ((c : Thread nD τ).loc main_arg1) := by
  show StableHlo.after hostOps0_3 _ (Proc.devRef .tc main_arg1) = _
  after_results

/-! ## The two arrays of endpoint vectors

Before the call the host cuts the edge table into its subject column and its object column, narrows the object table's
format (the identity on the extended reals), and takes the table's rows at each column with the fill for numbers
outside the table. -/

/-- The subject column of the edge table, flattened to a vector. -/
abbrev subjCol (c : Dev nD) : IVec ⟨1, ![200000]⟩ 32 :=
  shapeCast ⟨1, ![200000]⟩
    (extractStridedSlice ⟨2, ![200000, 1]⟩ ![0, 0] (m ((c : Thread nD τ).loc main_arg2) : IVec ⟨2, ![200000, 2]⟩ 32)
      slices_S200000x2_S200000x1_0_0) shapeCasts_S200000x1_S200000

/-- The object column of the edge table, flattened to a vector. -/
abbrev objCol (c : Dev nD) : IVec ⟨1, ![200000]⟩ 32 :=
  shapeCast ⟨1, ![200000]⟩
    (extractStridedSlice ⟨2, ![200000, 1]⟩ ![0, 1] (m ((c : Thread nD τ).loc main_arg2) : IVec ⟨2, ![200000, 2]⟩ 32)
      slices_S200000x2_S200000x1_0_1) shapeCasts_S200000x1_S200000

/-- The object table in the narrower format. -/
abbrev table (c : Dev nD) : FVec Ideal ⟨2, ![50000, 128]⟩ .bf16 :=
  truncf (F := Ideal) .bf16 (m ((c : Thread nD τ).loc main_arg0) : FVec Ideal ⟨2, ![50000, 128]⟩ .f32) bitsLt_bf16_f32

/-- Entry t of the subject column is the edge table's (t, 0). -/
theorem subjCol_apply (c : Dev nD) (t : Fin 200000) :
    subjCol m c (ix1 t) = (m ((c : Thread nD τ).loc main_arg2) : IVec ⟨2, ![200000, 2]⟩ 32) (ix2 t 0) :=
  Cert.HostTake.column_apply 0 _ _ _ 0 rfl t

/-- Entry t of the object column is the edge table's (t, 1). -/
theorem objCol_apply (c : Dev nD) (t : Fin 200000) :
    objCol m c (ix1 t) = (m ((c : Thread nD τ).loc main_arg2) : IVec ⟨2, ![200000, 2]⟩ 32) (ix2 t 1) :=
  Cert.HostTake.column_apply 1 _ _ _ 1 rfl t

/-- The subject-vector array as the call finds it: the take of the narrowed table at the subject column. -/
theorem W4_v5 (c : Dev nD) :
    (W4 m ρ c (Proc.devRef .tc main_v5) : FVec Ideal ⟨2, ![200000, 128]⟩ .bf16)
      = Cert.HostTake.takeFill bcast_S_S200000 bcast_S200000_S200000x1_0 bcast_S_S200000x1 bcast_S1_S1x1_1 bcast_S1x1_S200000x1_0_1 reducesTo_S200000x1_S200000_d1 h_S_ bcast_S200000_S200000x128_0 bcast_S_S200000x128 gather_S50000x128_S200000x1_S200000x128_1_0_n_n_0_1_1128 (table m c) (subjCol m c) := by
  show StableHlo.after hostOps0_3 _ (Proc.devRef .tc main_v5) = _
  after_results_simp
  simp only [StableHlo.TRef.ofBuf, StableHlo.TRef.toBuf, cast_eq]
  unfold Cert.HostTake.takeFill Cert.HostTake.inside Cert.HostTake.colm Cert.HostTake.wrapped
  rfl

/-- The object-vector array as the call finds it: the take of the narrowed table at the object column. -/
theorem W4_v6 (c : Dev nD) :
    (W4 m ρ c (Proc.devRef .tc main_v6) : FVec Ideal ⟨2, ![200000, 128]⟩ .bf16)
      = Cert.HostTake.takeFill bcast_S_S200000 bcast_S200000_S200000x1_0 bcast_S_S200000x1 bcast_S1_S1x1_1 bcast_S1x1_S200000x1_0_1 reducesTo_S200000x1_S200000_d1 h_S_ bcast_S200000_S200000x128_0 bcast_S_S200000x128 gather_S50000x128_S200000x1_S200000x128_1_0_n_n_0_1_1128 (table m c) (objCol m c) := by
  show StableHlo.after hostOps0_3 _ (Proc.devRef .tc main_v6) = _
  after_results_simp
  simp only [StableHlo.TRef.ofBuf, StableHlo.TRef.toBuf, cast_eq]
  unfold Cert.HostTake.takeFill Cert.HostTake.inside Cert.HostTake.colm Cert.HostTake.wrapped
  rfl

/-! ## The seven arrays, element by element -/

/-- What the first call finds in its subject-vector array: row t is the object table's row named by edge t's
    subject, when every endpoint is a row number of the table (the fill for an out-of-table endpoint never applies). -/
theorem V4_xs (c : Dev nD) (hr : Spec.InRange (m ((c : Thread nD τ).loc main_arg2))) (t : Fin 200000) (i : Fin 128) :
    (V4 m ρ c (Pipeline.arrRef spec0 0) : (⟨2, ![200000, 128]⟩ : Shape).Idx → EReal) (ix2 t i)
      = Spec.endVec (m ((c : Thread nD τ).loc main_arg0)) (m ((c : Thread nD τ).loc main_arg2)) 0 t i := by
  have hcol : ∀ t : Fin 200000, 0 ≤ (subjCol m c (ix1 t)).toInt ∧ (subjCol m c (ix1 t)).toInt < 50000 := fun t => by
    rw [subjCol_apply]; exact hr t 0
  refine (congrFun (W4_v5 m ρ c) (ix2 t i)).trans ?_
  refine (Cert.HostTake.takeFill_apply bcast_S_S200000 bcast_S200000_S200000x1_0 bcast_S_S200000x1 bcast_S1_S1x1_1 bcast_S1x1_S200000x1_0_1 reducesTo_S200000x1_S200000_d1 h_S_ bcast_S200000_S200000x128_0 bcast_S_S200000x128 gather_S50000x128_S200000x1_S200000x128_1_0_n_n_0_1_1128 (subjCol m c) hcol rfl rfl rfl rfl rfl rfl (table m c) t i).trans ?_
  rw [subjCol_apply]
  rfl

/-- The predicate-vector array is the second argument itself. -/
theorem V4_xp (c : Dev nD) (t : Fin 200000) (i : Fin 128) :
    (V4 m ρ c (Pipeline.arrRef spec0 1) : (⟨2, ![200000, 128]⟩ : Shape).Idx → EReal) (ix2 t i)
      = m ((c : Thread nD τ).loc main_arg1) (ix2 t i) :=
  congrFun (W4_arg1 m ρ c) (ix2 t i)

/-- The object-vector array: row t is the object table's row named by edge t's object. -/
theorem V4_xo (c : Dev nD) (hr : Spec.InRange (m ((c : Thread nD τ).loc main_arg2))) (t : Fin 200000) (i : Fin 128) :
    (V4 m ρ c (Pipeline.arrRef spec0 2) : (⟨2, ![200000, 128]⟩ : Shape).Idx → EReal) (ix2 t i)
      = Spec.endVec (m ((c : Thread nD τ).loc main_arg0)) (m ((c : Thread nD τ).loc main_arg2)) 1 t i := by
  have hcol : ∀ t : Fin 200000, 0 ≤ (objCol m c (ix1 t)).toInt ∧ (objCol m c (ix1 t)).toInt < 50000 := fun t => by
    rw [objCol_apply]; exact hr t 1
  refine (congrFun (W4_v6 m ρ c) (ix2 t i)).trans ?_
  refine (Cert.HostTake.takeFill_apply bcast_S_S200000 bcast_S200000_S200000x1_0 bcast_S_S200000x1 bcast_S1_S1x1_1 bcast_S1x1_S200000x1_0_1 reducesTo_S200000x1_S200000_d1 h_S_ bcast_S200000_S200000x128_0 bcast_S_S200000x128 gather_S50000x128_S200000x1_S200000x128_1_0_n_n_0_1_1128 (objCol m c) hcol rfl rfl rfl rfl rfl rfl (table m c) t i).trans ?_
  rw [objCol_apply]
  rfl

/-- The first layer's weight, its format changed (the identity on the extended reals). -/
theorem V4_w1 (c : Dev nD) (i : Fin 384) (k : Fin 256) :
    (V4 m ρ c (Pipeline.arrRef spec0 3) : (⟨2, ![384, 256]⟩ : Shape).Idx → EReal) (ix2 i k)
      = m ((c : Thread nD τ).loc main_arg3) (ix2 i k) :=
  congrFun (W4_v7 m ρ c) (ix2 i k)

/-- The first layer's bias as a one-row matrix. -/
theorem V4_b1 (c : Dev nD) (k : Fin 256) :
    (V4 m ρ c (Pipeline.arrRef spec0 4) : (⟨2, ![1, 256]⟩ : Shape).Idx → EReal) (ix2 0 k)
      = m ((c : Thread nD τ).loc main_arg4) (ix1 k) :=
  (congrFun (W4_v9 m ρ c) (ix2 0 k)).trans (shapeCast_a_1a_apply _ _ (0 : Fin 1) k)

/-- The second layer's weight, its format changed. -/
theorem V4_w2 (c : Dev nD) (k : Fin 256) (j : Fin 640) :
    (V4 m ρ c (Pipeline.arrRef spec0 5) : (⟨2, ![256, 640]⟩ : Shape).Idx → EReal) (ix2 k j)
      = m ((c : Thread nD τ).loc main_arg5) (ix2 k j) :=
  congrFun (W4_v8 m ρ c) (ix2 k j)

/-- The second layer's bias as a one-row matrix. -/
theorem V4_b2 (c : Dev nD) (j : Fin 640) :
    (V4 m ρ c (Pipeline.arrRef spec0 6) : (⟨2, ![1, 640]⟩ : Shape).Idx → EReal) (ix2 0 j)
      = m ((c : Thread nD τ).loc main_arg6) (ix1 j) :=
  (congrFun (W4_v10 m ρ c) (ix2 0 j)).trans (shapeCast_a_1a_apply _ _ (0 : Fin 1) j)

end Cert.KernelIdeal.HostIn0

end
-- ==== Proof.HostIn1Rows.lean ====
/-
  THE TWO HOST SCATTER-ADDS READ AT AN ENTRY, over abstract arrays.

  An endpoint column of the edge table (a column slice of the [n × 2] table, flattened to a vector and laid out again
  as an [n × 1] column of start indices) reads at row e the table's entry (e, a). A scatter-add of [n × D] update rows
  into a zero [K × D] array at such a column leaves at (o, i) the 0.0 word plus the sum of column i of the update rows
  whose endpoint word reads signed as o. A scatter-add of n ones into a zero [K] vector, laid out as a [K × 1] column,
  leaves at (o, 0) the 0.0 word plus one 1.0 word per start index that reads signed as o. When the start indices are two
  columns laid end to end, that count is the first column's plus the second's.
-/
import proofs.«428517_j6459630813308_3_alg».proof.Proof.LibGatherScatter
import proofs.«428517_j6459630813308_3_alg».proof.Proof.Spec
import Idealize.ShloMosaic.Lib.IdealHost
import Idealize.ShloMosaic.Lib.Pipeline.Value
import Mathlib.Algebra.BigOperators.Fin

open scoped BigOperators

noncomputable section

namespace Cert.HostCount

/-- COUNTING OVER TWO LISTS LAID END TO END. The constant c summed over the positions e < N = n + n with p e: the
    positions below n are counted by f, those from n on by g (position n + i of the whole is position i of the second
    half). -/
theorem sum_filter_two_halves {M : Type*} [AddCommMonoid M] {N n : Nat} (hN : N = n + n)
    (p : Fin N → Prop) [DecidablePred p] (f g : Fin n → Prop) [DecidablePred f] [DecidablePred g]
    (hf : ∀ (e : Fin N) (i : Fin n), e.val = i.val → (p e ↔ f i))
    (hg : ∀ (e : Fin N) (i : Fin n), e.val = n + i.val → (p e ↔ g i)) (c : M) :
    ∑ _e ∈ Finset.univ.filter p, c
      = (∑ _e ∈ Finset.univ.filter f, c) + ∑ _e ∈ Finset.univ.filter g, c := by
  subst hN
  rw [Finset.sum_filter, Finset.sum_filter, Finset.sum_filter, Fin.sum_univ_add]
  refine congrArg₂ (· + ·) ?_ ?_
  · exact Finset.sum_congr rfl fun i _ => if_congr (hf (Fin.castAdd n i) i rfl) rfl rfl
  · exact Finset.sum_congr rfl fun i _ => if_congr (hg (Fin.natAdd n i) i rfl) rfl rfl

end Cert.HostCount

namespace Cert.HostRows

open Idealize.ShloMosaic Idealize.ShloMosaic.ValueIdx Idealize.ShloMosaic.StableHlo.Predicate Idealize.ShloMosaic.RowOps

/-- A vector laid out as an [n × 1] column reads at row e the vector's entry e. -/
theorem column_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ixP e) = v (ix1 e) := by
  rw [bcast_col1, ofFin_eq_ix1]

/-- Column a of an [n × 2] table, sliced out and flattened, reads at e the table's entry (e, a). -/
theorem tableColumn_apply {α : Type} {n : Nat} (a : Fin 2) (off : Fin 2 → Nat) (h0 : off 0 = 0) (h1 : off 1 = a.val)
    (x2 : (⟨2, ![n, 2]⟩ : Shape).Idx → α) (hs : (⟨2, ![n, 2]⟩ : Shape).Slices off ⟨2, ![n, 1]⟩)
    (hc : (⟨2, ![n, 1]⟩ : Shape).ShapeCasts ⟨1, ![n]⟩) (e : Fin n) :
    shapeCast ⟨1, ![n]⟩ (extractStridedSlice ⟨2, ![n, 1]⟩ off x2 hs) hc (ix1 e) = x2 (ix2 e a) := by
  refine (shapeCast_apply _ hc (ix1 e) (ixP e) ?_).trans ?_
  · rw [Shape.rowMajor_val_two, Shape.rowMajor_val_one]
    show e.val * 1 + 0 = e.val
    omega
  · refine extractStridedSlice_apply off x2 hs (ixP e) (ix2 e a) fun b => ?_
    match b with
    | ⟨0, _⟩ => show e.val = off 0 + e.val; rw [h0, Nat.zero_add]
    | ⟨1, _⟩ => show a.val = off 1 + 0; rw [h1, Nat.add_zero]

/-- The row scatter-add into zeros: entry (o, i) is the 0.0 word plus column i of the update rows whose start index
    (given row by row as `col`) reads signed as o. A change of the updates' float format changes nothing. -/
theorem scatterRows_zero_apply {K D n : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (hz : (⟨0, ![]⟩ : Shape).BroadcastsInDim ⟨2, ![K, D]⟩ ![])
    (idx : IVec ⟨2, ![n, 1]⟩ 32) (col : Fin n → BitVec 32) (hidx : ∀ e, idx (ixP e) = col e)
    (upd : FVec Ideal ⟨2, ![n, D]⟩ .bf16) (hlt : FTy.bits .bf16 < FTy.bits .f32) (o : Fin K) (i : Fin D) :
    Host.scatterAdd (F := Ideal) d (broadcastInDim ⟨2, ![K, D]⟩ ![] hz (constant (F := Ideal) ⟨0, ![]⟩ .f32 0x00000000#32)) idx
        (extf (F := Ideal) .f32 upd hlt) (ix2 o i)
      = Spec.zeroW + ∑ e ∈ Finset.univ.filter (fun e : Fin n => (col e).toInt = (o.val : Int)), upd (ix2 e i) := by
  show Ideal.hostScatterAdd d _ idx _ (ix2 o i) = _
  rw [scatterAdd_rows d huw hiw hsd hivd, broadcastInDim_scalar_apply]
  refine congrArg₂ (· + ·) rfl (Finset.sum_congr (Finset.filter_congr fun e _ => ?_) fun _ _ => rfl)
  unfold lands
  rw [hidx e]

/-- The scatter-add of ones into a zero vector, laid out as a column: entry (o, 0) is the 0.0 word plus one 1.0 word
    per start index that reads signed as o. -/
theorem scatterOnes_zero_apply {K n : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (hz : (⟨0, ![]⟩ : Shape).BroadcastsInDim ⟨1, ![K]⟩ ![]) (h1 : (⟨0, ![]⟩ : Shape).BroadcastsInDim ⟨1, ![n]⟩ ![])
    (hc : (⟨1, ![K]⟩ : Shape).ShapeCasts ⟨2, ![K, 1]⟩)
    (idx : IVec ⟨2, ![n, 1]⟩ 32) (col : Fin n → BitVec 32) (hidx : ∀ e, idx (ixP e) = col e) (o : Fin K) :
    shapeCast ⟨2, ![K, 1]⟩
        (Host.scatterAdd (F := Ideal) d (broadcastInDim ⟨1, ![K]⟩ ![] hz (constant (F := Ideal) ⟨0, ![]⟩ .f32 0x00000000#32)) idx
          (broadcastInDim ⟨1, ![n]⟩ ![] h1 (constant (F := Ideal) ⟨0, ![]⟩ .f32 0x3F800000#32))) hc (ix2 o 0)
      = Spec.zeroW + ∑ _e ∈ Finset.univ.filter (fun e : Fin n => (col e).toInt = (o.val : Int)), Spec.oneW := by
  refine (shapeCast_apply _ hc (ix2 o 0) (ix1 o) ?_).trans ?_
  · rw [Shape.rowMajor_val_two, Shape.rowMajor_val_one]
    show o.val = o.val * 1 + 0
    omega
  show Ideal.hostScatterAdd d _ idx _ (ix1 o) = _
  rw [scatterAdd_row1 d huw hiw hsd hivd, broadcastInDim_scalar_apply]
  refine congrArg₂ (· + ·) rfl (Finset.sum_congr (Finset.filter_congr fun e _ => ?_) fun e _ => ?_)
  · unfold lands
    rw [hidx e]
  · rw [broadcastInDim_scalar_apply]
    rfl

/-- Two vectors of length n laid end to end: a position below n reads the first. -/
theorem concatColumns_left {α : Type} {n N : Nat} (h : Shape.Concatenates [(⟨1, ![n]⟩ : Shape), ⟨1, ![n]⟩] ⟨1, ![N]⟩ 0)
    (a b : (⟨1, ![n]⟩ : Shape).Idx → α) (e : Fin N) (i : Fin n) (hei : e.val = i.val) :
    concatenate ⟨1, ![N]⟩ 0 [⟨⟨1, ![n]⟩, a⟩, ⟨⟨1, ![n]⟩, b⟩] h (ix1 e) = a (ix1 i) :=
  concatenate_pair_apply_left 0 a b h (ix1 e) rfl (ix1 i) fun k => by
    match k with
    | ⟨0, _⟩ => exact hei.symm

/-- A position n + i reads the second at i. -/
theorem concatColumns_right {α : Type} {n N : Nat} (h : Shape.Concatenates [(⟨1, ![n]⟩ : Shape), ⟨1, ![n]⟩] ⟨1, ![N]⟩ 0)
    (a b : (⟨1, ![n]⟩ : Shape).Idx → α) (e : Fin N) (i : Fin n) (hei : e.val = n + i.val) :
    concatenate ⟨1, ![N]⟩ 0 [⟨⟨1, ![n]⟩, a⟩, ⟨⟨1, ![n]⟩, b⟩] h (ix1 e) = b (ix1 i) :=
  concatenate_pair_apply_right 0 a b h (ix1 e) rfl rfl (ix1 i)
    (fun k hk => absurd (Subsingleton.elim _ _) hk)
    (by show i.val + n = e.val; omega)

/-- ONE scatter-add of ones at the two endpoint columns laid end to end counts, at object o, the entries of the first
    column that read as o plus those of the second: the count over the 2n positions splits at n, and the 0.0 word the
    sum starts from is the zero of the extended reals, so each half may be given its own. -/
theorem countColumn_apply {K n N : Nat} (hN : N = n + n) (d : ScatterDims ⟨1, ![K]⟩ ⟨2, ![N, 1]⟩ ⟨1, ![N]⟩)
    (huw : d.updateWindowDims = []) (hiw : d.insertedWindowDims = [0]) (hsd : d.scatterDimsToOperandDims = [0])
    (hivd : d.indexVectorDim = 1)
    (hz : (⟨0, ![]⟩ : Shape).BroadcastsInDim ⟨1, ![K]⟩ ![]) (h1 : (⟨0, ![]⟩ : Shape).BroadcastsInDim ⟨1, ![N]⟩ ![])
    (hc : (⟨1, ![K]⟩ : Shape).ShapeCasts ⟨2, ![K, 1]⟩)
    (hcat : Shape.Concatenates [(⟨1, ![n]⟩ : Shape), ⟨1, ![n]⟩] ⟨1, ![N]⟩ 0)
    (hb : (⟨1, ![N]⟩ : Shape).BroadcastsInDim ⟨2, ![N, 1]⟩ ![0])
    (a b : IVec ⟨1, ![n]⟩ 32) (ca cb : Fin n → BitVec 32) (ha : ∀ e, a (ix1 e) = ca e) (hbb : ∀ e, b (ix1 e) = cb e)
    (o : Fin K) :
    shapeCast ⟨2, ![K, 1]⟩
        (Host.scatterAdd (F := Ideal) d (broadcastInDim ⟨1, ![K]⟩ ![] hz (constant (F := Ideal) ⟨0, ![]⟩ .f32 0x00000000#32))
          (broadcastInDim ⟨2, ![N, 1]⟩ ![0] hb (concatenate ⟨1, ![N]⟩ 0 [⟨⟨1, ![n]⟩, a⟩, ⟨⟨1, ![n]⟩, b⟩] hcat))
          (broadcastInDim ⟨1, ![N]⟩ ![] h1 (constant (F := Ideal) ⟨0, ![]⟩ .f32 0x3F800000#32))) hc (ix2 o 0)
      = (Spec.zeroW + ∑ _e ∈ Finset.univ.filter (fun e : Fin n => (ca e).toInt = (o.val : Int)), Spec.oneW)
        + (Spec.zeroW + ∑ _e ∈ Finset.univ.filter (fun e : Fin n => (cb e).toInt = (o.val : Int)), Spec.oneW) := by
  rw [scatterOnes_zero_apply d huw hiw hsd hivd hz h1 hc _
      (fun e => concatenate ⟨1, ![N]⟩ 0 [⟨⟨1, ![n]⟩, a⟩, ⟨⟨1, ![n]⟩, b⟩] hcat (ix1 e)) (fun e => column_apply hb _ e) o,
    HostCount.sum_filter_two_halves hN _ (fun e : Fin n => (ca e).toInt = (o.val : Int))
      (fun e : Fin n => (cb e).toInt = (o.val : Int))
      (fun e i hei => by rw [concatColumns_left hcat a b e i hei, ha i])
      (fun e i hei => by rw [concatColumns_right hcat a b e i hei, hbb i]) Spec.oneW]
  have hzero : Spec.zeroW = 0 := Ideal.ofBits_zero_f32
  rw [hzero, zero_add, zero_add, zero_add]

end Cert.HostRows

end
-- ==== Proof.HostIn1.lean ====
import proofs.«428517_j6459630813308_3_alg».proof.Proof.Gen.KernelIdeal.Frame
import proofs.«428517_j6459630813308_3_alg».proof.Proof.Spec
import proofs.«428517_j6459630813308_3_alg».proof.Proof.HostIn1Rows
import Idealize.ShloMosaic.Lib.ValueLayout

set_option maxRecDepth 16384

open scoped BigOperators

noncomputable section

namespace Cert.KernelIdeal.HostIn1

open Cert.KernelIdeal Cert.KernelIdeal.Gen Idealize.ShloMosaic Idealize.ShloMosaic.TcCoe Idealize.ShloMosaic.ValueIdx
open Idealize.SL.Sem
open Idealize.ShloMosaic.Pipeline (Dat Cfg Window)
variable (m : (ℓ : Loc nD τ sig) → Buf (Elt Ideal) ℓ) (ρ : Dev nD → PrngReg)

/-- The second result is the first call's new-predicate array: nothing after the call writes it. -/
theorem res_newP (c : Dev nD) :
    W7 m ρ c (Proc.devRef .tc main_v11_1) = (dat0 (V4 m ρ) c).arrAt 8 cfg0.N :=
  calc W7 m ρ c (Proc.devRef .tc main_v11_1)
    -- it is no array of the second call,
    _ = W6 m ρ c (Proc.devRef .tc main_v11_1) := W7_of_ne m ρ c main_v11_1 (by decide)
    -- no host operation between the calls writes it,
    _ = W5 m ρ c (Proc.devRef .tc main_v11_1) := StableHlo.after_of_forall_not_mem (b := Proc.devRef .tc main_v11_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    -- and it is the array of the first call's window 8.
    _ = (dat0 (V4 m ρ) c).arrAt 8 cfg0.N := W5_arr m ρ c 8

/-- The first result is the second call's output array. -/
theorem res_newObj (c : Dev nD) :
    W7 m ρ c (Proc.devRef .tc main_v31) = (dat1 (V6 m ρ) c).arrAt 6 cfg1.N :=
  W7_arr m ρ c 6

/-- Argument 7 is written by no host operation and is no array of the first call: at the first call's exit it is as launched. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := StableHlo.after_of_forall_not_mem (b := Proc.devRef .tc main_arg7) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := StableHlo.after_of_forall_not_mem (b := Proc.devRef .tc main_arg7) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

/-- Argument 8 is written by no host operation and is no array of the first call: at the first call's exit it is as launched. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg8) := StableHlo.after_of_forall_not_mem (b := Proc.devRef .tc main_arg8) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := StableHlo.after_of_forall_not_mem (b := Proc.devRef .tc main_arg8) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- Argument 9 is written by no host operation and is no array of the first call: at the first call's exit it is as launched. -/
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg9) := StableHlo.after_of_forall_not_mem (b := Proc.devRef .tc main_arg9) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := StableHlo.after_of_forall_not_mem (b := Proc.devRef .tc main_arg9) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

/-- Argument 10 is written by no host operation and is no array of the first call: at the first call's exit it is as launched. -/
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg10) := StableHlo.after_of_forall_not_mem (b := Proc.devRef .tc main_arg10) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := StableHlo.after_of_forall_not_mem (b := Proc.devRef .tc main_arg10) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

/-! ## The second call's weights and biases: a change of float format (the identity on the extended reals) of an
    argument, resp. an argument vector laid out as a one-row matrix -/

theorem W6_v27 (c : Dev nD) :
    (W6 m ρ c (Proc.devRef .tc main_v27) : FVec Ideal S256x256 .bf16)
      = truncf (F := Ideal) .bf16 (W5 m ρ c (Proc.devRef .tc main_arg7) : FVec Ideal S256x256 .f32) bitsLt_bf16_f32 := by
  show StableHlo.after hostOps1 (W5 m ρ c) (Proc.devRef .tc main_v27) = _
  after_results

theorem W6_v28 (c : Dev nD) :
    (W6 m ρ c (Proc.devRef .tc main_v28) : FVec Ideal S256x128 .bf16)
      = truncf (F := Ideal) .bf16 (W5 m ρ c (Proc.devRef .tc main_arg9) : FVec Ideal S256x128 .f32) bitsLt_bf16_f32 := by
  show StableHlo.after hostOps1 (W5 m ρ c) (Proc.devRef .tc main_v28) = _
  after_results

theorem W6_v29 (c : Dev nD) :
    (W6 m ρ c (Proc.devRef .tc main_v29) : FVec Ideal S1x256 .f32)
      = shapeCast S1x256 (W5 m ρ c (Proc.devRef .tc main_arg8) : FVec Ideal S256 .f32) shapeCasts_S256_S1x256 := by
  show StableHlo.after hostOps1 (W5 m ρ c) (Proc.devRef .tc main_v29) = _
  after_results
  rfl

theorem W6_v30 (c : Dev nD) :
    (W6 m ρ c (Proc.devRef .tc main_v30) : FVec Ideal S1x128 .f32)
      = shapeCast S1x128 (W5 m ρ c (Proc.devRef .tc main_arg10) : FVec Ideal S128 .f32) shapeCasts_S128_S1x128 := by
  show StableHlo.after hostOps1 (W5 m ρ c) (Proc.devRef .tc main_v30) = _
  after_results
  rfl

theorem V6_w3 (c : Dev nD) (i : Fin 256) (k : Fin 256) :
    (V6 m ρ c (Pipeline.arrRef spec1 2) : (⟨2, ![256, 256]⟩ : Shape).Idx → EReal) (ix2 i k)
      = m ((c : Thread nD τ).loc main_arg7) (ix2 i k) := by
  refine (congrFun (W6_v27 m ρ c) (ix2 i k)).trans ?_
  rw [W5_main_arg7]
  rfl

theorem V6_b3 (c : Dev nD) (k : Fin 256) :
    (V6 m ρ c (Pipeline.arrRef spec1 3) : (⟨2, ![1, 256]⟩ : Shape).Idx → EReal) (ix2 0 k)
      = m ((c : Thread nD τ).loc main_arg8) (ix1 k) := by
  refine (congrFun (W6_v29 m ρ c) (ix2 0 k)).trans ?_
  rw [W5_main_arg8]
  exact shapeCast_a_1a_apply _ _ 0 k

theorem V6_w4 (c : Dev nD) (k : Fin 256) (j : Fin 128) :
    (V6 m ρ c (Pipeline.arrRef spec1 4) : (⟨2, ![256, 128]⟩ : Shape).Idx → EReal) (ix2 k j)
      = m ((c : Thread nD τ).loc main_arg9) (ix2 k j) := by
  refine (congrFun (W6_v28 m ρ c) (ix2 k j)).trans ?_
  rw [W5_main_arg9]
  rfl

theorem V6_b4 (c : Dev nD) (j : Fin 128) :
    (V6 m ρ c (Pipeline.arrRef spec1 5) : (⟨2, ![1, 128]⟩ : Shape).Idx → EReal) (ix2 0 j)
      = m ((c : Thread nD τ).loc main_arg10) (ix1 j) := by
  refine (congrFun (W6_v30 m ρ c) (ix2 0 j)).trans ?_
  rw [W5_main_arg10]
  exact shapeCast_a_1a_apply _ _ 0 j

/-! ## The pooled sums and the counts: what the host operations between the two calls build from the first call's two
    message arrays and the edge table's two endpoint columns -/

/-- Endpoint column 0 of the edge table (sliced out and flattened before the first call) is still there at the first
    call's exit: the three later stretches and the call do not write it. -/
theorem W5_main_v1 (c : Dev nD) :
    (W5 m ρ c (Proc.devRef .tc main_v1) : IVec S200000 32)
      = shapeCast S200000 (extractStridedSlice S200000x1 ![0, 0] (m ((c : Thread nD τ).loc main_arg2) : IVec S200000x2 32)
          slices_S200000x2_S200000x1_0_0) shapeCasts_S200000x1_S200000 := by
  have h : W5 m ρ c (Proc.devRef .tc main_v1) = W1 m ρ c (Proc.devRef .tc main_v1) :=
    calc W5 m ρ c (Proc.devRef .tc main_v1)
      _ = W4 m ρ c (Proc.devRef .tc main_v1) := W5_of_ne m ρ c main_v1 (by decide)
      _ = W3 m ρ c (Proc.devRef .tc main_v1) := StableHlo.after_of_forall_not_mem (b := Proc.devRef .tc main_v1) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W2 m ρ c (Proc.devRef .tc main_v1) := StableHlo.after_of_forall_not_mem (b := Proc.devRef .tc main_v1) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W1 m ρ c (Proc.devRef .tc main_v1) := StableHlo.after_of_forall_not_mem (b := Proc.devRef .tc main_v1) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  refine h.trans ?_
  show StableHlo.after hostOps0 (W0 m ρ c) (Proc.devRef .tc main_v1) = _
  after_results
  rfl

/-- Endpoint column 1 of the edge table (sliced out and flattened before the first call) is still there at the first
    call's exit: the three later stretches and the call do not write it. -/
theorem W5_main_v3 (c : Dev nD) :
    (W5 m ρ c (Proc.devRef .tc main_v3) : IVec S200000 32)
      = shapeCast S200000 (extractStridedSlice S200000x1 ![0, 1] (m ((c : Thread nD τ).loc main_arg2) : IVec S200000x2 32)
          slices_S200000x2_S200000x1_0_1) shapeCasts_S200000x1_S200000 := by
  have h : W5 m ρ c (Proc.devRef .tc main_v3) = W1 m ρ c (Proc.devRef .tc main_v3) :=
    calc W5 m ρ c (Proc.devRef .tc main_v3)
      _ = W4 m ρ c (Proc.devRef .tc main_v3) := W5_of_ne m ρ c main_v3 (by decide)
      _ = W3 m ρ c (Proc.devRef .tc main_v3) := StableHlo.after_of_forall_not_mem (b := Proc.devRef .tc main_v3) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W2 m ρ c (Proc.devRef .tc main_v3) := StableHlo.after_of_forall_not_mem (b := Proc.devRef .tc main_v3) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W1 m ρ c (Proc.devRef .tc main_v3) := StableHlo.after_of_forall_not_mem (b := Proc.devRef .tc main_v3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  refine h.trans ?_
  show StableHlo.after hostOps0 (W0 m ρ c) (Proc.devRef .tc main_v3) = _
  after_results
  rfl

/-- The two message arrays at the first call's exit are its windows 7 and 9. -/
theorem W5_v11_0 (c : Dev nD) : W5 m ρ c (Proc.devRef .tc main_v11_0) = (dat0 (V4 m ρ) c).arrAt 7 cfg0.N := W5_arr m ρ c 7
theorem W5_v11_2 (c : Dev nD) : W5 m ρ c (Proc.devRef .tc main_v11_2) = (dat0 (V4 m ρ) c).arrAt 9 cfg0.N := W5_arr m ρ c 9

set_option maxHeartbeats 1000000 in
/-- The pooled-sum array as the host operations between the calls build it, over the buffers' contents at the first
    call's exit. -/
theorem W6_v20_ops (c : Dev nD) :
    (W6 m ρ c (Proc.devRef .tc main_v20) : FVec Ideal S50000x256 .f32)
      = addf (F := Ideal)
          (Host.scatterAdd (F := Ideal) scatter_S50000x256_S200000x1_S200000x256_1_0_0_1
            (broadcastInDim S50000x256 ![] bcast_S_S50000x256 (constant (F := Ideal) S_ .f32 0x00000000#32))
            (broadcastInDim S200000x1 ![0] bcast_S200000_S200000x1_0 (W5 m ρ c (Proc.devRef .tc main_v1) : IVec S200000 32))
            (extf (F := Ideal) .f32 (W5 m ρ c (Proc.devRef .tc main_v11_0) : FVec Ideal S200000x256 .bf16) bitsLt_bf16_f32))
          (Host.scatterAdd (F := Ideal) scatter_S50000x256_S200000x1_S200000x256_1_0_0_1
            (broadcastInDim S50000x256 ![] bcast_S_S50000x256 (constant (F := Ideal) S_ .f32 0x00000000#32))
            (broadcastInDim S200000x1 ![0] bcast_S200000_S200000x1_0 (W5 m ρ c (Proc.devRef .tc main_v3) : IVec S200000 32))
            (extf (F := Ideal) .f32 (W5 m ρ c (Proc.devRef .tc main_v11_2) : FVec Ideal S200000x256 .bf16) bitsLt_bf16_f32)) := by
  show StableHlo.after hostOps1 (W5 m ρ c) (Proc.devRef .tc main_v20) = _
  after_results

set_option maxHeartbeats 1000000 in
/-- The count column as the host operations between the calls build it, over the buffers' contents at the first call's
    exit. -/
theorem W6_v26_ops (c : Dev nD) :
    (W6 m ρ c (Proc.devRef .tc main_v26) : FVec Ideal S50000x1 .f32)
      = shapeCast S50000x1
          (Host.scatterAdd (F := Ideal) scatter_S50000_S400000x1_S400000_n_0_0_1
            (broadcastInDim S50000 ![] bcast_S_S50000 (constant (F := Ideal) S_ .f32 0x00000000#32))
            (broadcastInDim S400000x1 ![0] bcast_S400000_S400000x1_0
              (concatenate S400000 0 [⟨S200000, (W5 m ρ c (Proc.devRef .tc main_v1) : IVec S200000 32)⟩,
                  ⟨S200000, (W5 m ρ c (Proc.devRef .tc main_v3) : IVec S200000 32)⟩] concatenates_S200000_S200000_S400000_d0))
            (broadcastInDim S400000 ![] bcast_S_S400000 (constant (F := Ideal) S_ .f32 0x3F800000#32)))
          shapeCasts_S50000_S50000x1 := by
  show StableHlo.after hostOps1 (W5 m ρ c) (Proc.devRef .tc main_v26) = _
  after_results
  rfl

/-- The pooled-sum array as the second call finds it: the sum of two row scatter-adds into zeros, one of the subject
    messages (the first call's window 7) at the subject column, one of the object messages (window 9) at the object
    column of the edge table. -/
theorem W6_v20 (c : Dev nD) :
    (W6 m ρ c (Proc.devRef .tc main_v20) : FVec Ideal S50000x256 .f32)
      = addf (F := Ideal)
          (Host.scatterAdd (F := Ideal) scatter_S50000x256_S200000x1_S200000x256_1_0_0_1
            (broadcastInDim S50000x256 ![] bcast_S_S50000x256 (constant (F := Ideal) S_ .f32 0x00000000#32))
            (broadcastInDim S200000x1 ![0] bcast_S200000_S200000x1_0 (shapeCast S200000 (extractStridedSlice S200000x1 ![0, 0] (m ((c : Thread nD τ).loc main_arg2) : IVec S200000x2 32)
                slices_S200000x2_S200000x1_0_0) shapeCasts_S200000x1_S200000))
            (extf (F := Ideal) .f32 ((dat0 (V4 m ρ) c).arrAt 7 cfg0.N : FVec Ideal S200000x256 .bf16) bitsLt_bf16_f32))
          (Host.scatterAdd (F := Ideal) scatter_S50000x256_S200000x1_S200000x256_1_0_0_1
            (broadcastInDim S50000x256 ![] bcast_S_S50000x256 (constant (F := Ideal) S_ .f32 0x00000000#32))
            (broadcastInDim S200000x1 ![0] bcast_S200000_S200000x1_0 (shapeCast S200000 (extractStridedSlice S200000x1 ![0, 1] (m ((c : Thread nD τ).loc main_arg2) : IVec S200000x2 32)
                slices_S200000x2_S200000x1_0_1) shapeCasts_S200000x1_S200000))
            (extf (F := Ideal) .f32 ((dat0 (V4 m ρ) c).arrAt 9 cfg0.N : FVec Ideal S200000x256 .bf16) bitsLt_bf16_f32)) := by
  rw [W6_v20_ops, W5_main_v1, W5_main_v3, W5_v11_0, W5_v11_2]

/-- The count column as the second call finds it: ONE scatter-add of 400000 ones into zeros at the two endpoint columns
    laid end to end, as a [50000 × 1] column. -/
theorem W6_v26 (c : Dev nD) :
    (W6 m ρ c (Proc.devRef .tc main_v26) : FVec Ideal S50000x1 .f32)
      = shapeCast S50000x1
          (Host.scatterAdd (F := Ideal) scatter_S50000_S400000x1_S400000_n_0_0_1
            (broadcastInDim S50000 ![] bcast_S_S50000 (constant (F := Ideal) S_ .f32 0x00000000#32))
            (broadcastInDim S400000x1 ![0] bcast_S400000_S400000x1_0
              (concatenate S400000 0 [⟨S200000, (shapeCast S200000 (extractStridedSlice S200000x1 ![0, 0] (m ((c : Thread nD τ).loc main_arg2) : IVec S200000x2 32)
                slices_S200000x2_S200000x1_0_0) shapeCasts_S200000x1_S200000)⟩,
                  ⟨S200000, (shapeCast S200000 (extractStridedSlice S200000x1 ![0, 1] (m ((c : Thread nD τ).loc main_arg2) : IVec S200000x2 32)
                slices_S200000x2_S200000x1_0_1) shapeCasts_S200000x1_S200000)⟩] concatenates_S200000_S200000_S400000_d0))
            (broadcastInDim S400000 ![] bcast_S_S400000 (constant (F := Ideal) S_ .f32 0x3F800000#32)))
          shapeCasts_S50000_S50000x1 := by
  rw [W6_v26_ops, W5_main_v1, W5_main_v3]

/-- What the second call finds in its pooled-sum array: the two message arrays the first call left, each added up
    per object over the edges whose subject (object) is that object. -/
theorem V6_pooled (c : Dev nD) (o : Fin 50000) (i : Fin 256) :
    (V6 m ρ c (Pipeline.arrRef spec1 0) : (⟨2, ![50000, 256]⟩ : Shape).Idx → EReal) (ix2 o i)
      = Spec.pool (fun e i => ((dat0 (V4 m ρ) c).arrAt 7 cfg0.N : (⟨2, ![200000, 256]⟩ : Shape).Idx → EReal) (ix2 e i))
          (fun e i => ((dat0 (V4 m ρ) c).arrAt 9 cfg0.N : (⟨2, ![200000, 256]⟩ : Shape).Idx → EReal) (ix2 e i))
          (m ((c : Thread nD τ).loc main_arg2)) o i := by
  refine (congrFun (W6_v20 m ρ c) (ix2 o i)).trans ?_
  rw [addf_apply]
  -- each summand is one row scatter-add into zeros at an endpoint column of the edge table
  refine congrArg₂ (· + ·) ?_ ?_
  · exact HostRows.scatterRows_zero_apply (K := 50000) (D := 256) (n := 200000)
      scatter_S50000x256_S200000x1_S200000x256_1_0_0_1 rfl rfl rfl rfl
      bcast_S_S50000x256 _ (fun e => m ((c : Thread nD τ).loc main_arg2) (ix2 e 0))
      (fun e => (HostRows.column_apply bcast_S200000_S200000x1_0 _ e).trans
        (HostRows.tableColumn_apply 0 ![0, 0] rfl rfl _ slices_S200000x2_S200000x1_0_0 shapeCasts_S200000x1_S200000 e))
      _ bitsLt_bf16_f32 o i
  · exact HostRows.scatterRows_zero_apply (K := 50000) (D := 256) (n := 200000)
      scatter_S50000x256_S200000x1_S200000x256_1_0_0_1 rfl rfl rfl rfl
      bcast_S_S50000x256 _ (fun e => m ((c : Thread nD τ).loc main_arg2) (ix2 e 1))
      (fun e => (HostRows.column_apply bcast_S200000_S200000x1_0 _ e).trans
        (HostRows.tableColumn_apply 1 ![0, 1] rfl rfl _ slices_S200000x2_S200000x1_0_1 shapeCasts_S200000x1_S200000 e))
      _ bitsLt_bf16_f32 o i

/-- What it finds in its count column: the kernel counts subjects and objects in ONE pass over the 400000 endpoints
    laid end to end; that is the subjects' count plus the objects' count. -/
theorem V6_cnt (c : Dev nD) (o : Fin 50000) :
    (V6 m ρ c (Pipeline.arrRef spec1 1) : (⟨2, ![50000, 1]⟩ : Shape).Idx → EReal) (ix2 o 0)
      = Spec.cnt (m ((c : Thread nD τ).loc main_arg2)) o := by
  refine (congrFun (W6_v26 m ρ c) (ix2 o 0)).trans ?_
  exact HostRows.countColumn_apply (K := 50000) (n := 200000) (N := 400000) (by norm_num)
    scatter_S50000_S400000x1_S400000_n_0_0_1 rfl rfl rfl rfl
    bcast_S_S50000 bcast_S_S400000 shapeCasts_S50000_S50000x1 concatenates_S200000_S200000_S400000_d0
    bcast_S400000_S400000x1_0 _ _
    (fun e => m ((c : Thread nD τ).loc main_arg2) (ix2 e 0)) (fun e => m ((c : Thread nD τ).loc main_arg2) (ix2 e 1))
    (fun e => HostRows.tableColumn_apply 0 ![0, 0] rfl rfl _ slices_S200000x2_S200000x1_0_0 shapeCasts_S200000x1_S200000 e)
    (fun e => HostRows.tableColumn_apply 1 ![0, 1] rfl rfl _ slices_S200000x2_S200000x1_0_1 shapeCasts_S200000x1_S200000 e) o

end Cert.KernelIdeal.HostIn1

end
-- ==== Proof.KernelValue.lean ====
import proofs.«428517_j6459630813308_3_alg».proof.Proof.Gen.KernelIdeal.Frame
import proofs.«428517_j6459630813308_3_alg».proof.Proof.Spec
import proofs.«428517_j6459630813308_3_alg».proof.Proof.Results
import proofs.«428517_j6459630813308_3_alg».proof.Proof.Region0
import proofs.«428517_j6459630813308_3_alg».proof.Proof.Region1
import proofs.«428517_j6459630813308_3_alg».proof.Proof.HostIn0
import proofs.«428517_j6459630813308_3_alg».proof.Proof.HostIn1
set_option maxRecDepth 16384

open scoped BigOperators

noncomputable section

namespace Cert.KernelIdeal.KernelValue

open Cert.KernelIdeal Cert.KernelIdeal.Gen Idealize.ShloMosaic Idealize.ShloMosaic.TcCoe Idealize.ShloMosaic.ValueIdx
open Idealize.SL.Sem
open Idealize.ShloMosaic.Pipeline (Dat Cfg Window)
variable (m : (ℓ : Loc nD τ sig) → Buf (Elt Ideal) ℓ) (ρ : Dev nD → PrngReg)

/-- The first network as the first call computes it — over the arrays the call finds — is the first network on
    @main's argument arrays: each array the call finds is the argument it was made from, entry by entry, the two
    gathered ones when every endpoint is a row number of the object table. -/
theorem net1_eq (c : Dev nD) (hr : Spec.InRange (m ((c : Thread nD τ).loc main_arg2))) (t : Fin 200000) (j : Fin 640) :
    Spec.net1Out (Region0.xs (V4 m ρ) c) (Region0.xp (V4 m ρ) c) (Region0.xo (V4 m ρ) c) (Region0.w1 (V4 m ρ) c)
        (Region0.b1 (V4 m ρ) c) (Region0.w2 (V4 m ρ) c) (Region0.b2 (V4 m ρ) c) t j
      = Spec.net1 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) t j := by
  have e0 : Region0.xs (V4 m ρ) c
      = Spec.endVec (m ((c : Thread nD τ).loc main_arg0)) (m ((c : Thread nD τ).loc main_arg2)) 0 :=
    funext fun t => funext fun i => HostIn0.V4_xs m ρ c hr t i
  have e1 : Region0.xp (V4 m ρ) c = fun t i => m ((c : Thread nD τ).loc main_arg1) (ix2 t i) :=
    funext fun t => funext fun i => HostIn0.V4_xp m ρ c t i
  have e2 : Region0.xo (V4 m ρ) c
      = Spec.endVec (m ((c : Thread nD τ).loc main_arg0)) (m ((c : Thread nD τ).loc main_arg2)) 1 :=
    funext fun t => funext fun i => HostIn0.V4_xo m ρ c hr t i
  have e3 : Region0.w1 (V4 m ρ) c = fun i k => m ((c : Thread nD τ).loc main_arg3) (ix2 i k) :=
    funext fun i => funext fun k => HostIn0.V4_w1 m ρ c i k
  have e4 : Region0.b1 (V4 m ρ) c = fun k => m ((c : Thread nD τ).loc main_arg4) (ix1 k) :=
    funext fun k => HostIn0.V4_b1 m ρ c k
  have e5 : Region0.w2 (V4 m ρ) c = fun k j => m ((c : Thread nD τ).loc main_arg5) (ix2 k j) :=
    funext fun k => funext fun j => HostIn0.V4_w2 m ρ c k j
  have e6 : Region0.b2 (V4 m ρ) c = fun j => m ((c : Thread nD τ).loc main_arg6) (ix1 j) :=
    funext fun j => HostIn0.V4_b2 m ρ c j
  rw [e0, e1, e2, e3, e4, e5, e6]
  rfl

/-- THE SECOND RESULT: the buffer @main returns second holds, at (t, j), the new predicate vector of edge t. -/
theorem newP_value (c : Dev nD) (hr : Spec.InRange (m ((c : Thread nD τ).loc main_arg2))) :
    (W7 m ρ c (Proc.devRef .tc main_v11_1) : (⟨2, ![200000, 128]⟩ : Shape).Idx → EReal)
      = Spec.outP (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine Spec.eq_outP _ _ _ _ _ _ _ _ fun t j => ?_
  refine (congrFun (HostIn1.res_newP m ρ c) (ix2 t j)).trans ?_
  refine (Region0.newP_at (V4 m ρ) c t j).trans ?_
  exact net1_eq m ρ c hr t _

/-- THE FIRST RESULT: the buffer @main returns first holds, at (o, j), the new vector of object o: the second call's
    output over the pooled messages and the counts it finds, which are the closed form's. -/
theorem newObj_value (c : Dev nD) (hr : Spec.InRange (m ((c : Thread nD τ).loc main_arg2))) :
    (W7 m ρ c (Proc.devRef .tc main_v31) : (⟨2, ![50000, 128]⟩ : Shape).Idx → EReal)
      = Spec.outObj (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) := by
  refine Spec.eq_outObj _ _ _ _ _ _ _ _ _ _ _ _ fun o j => ?_
  refine (congrFun (HostIn1.res_newObj m ρ c) (ix2 o j)).trans ?_
  refine (Region1.newObj_at (V6 m ρ) c o j).trans ?_
  -- the messages the first call left are the first network's columns 0..255 and 384..639
  have eS : (fun (e : Fin 200000) (i : Fin 256) =>
        ((dat0 (V4 m ρ) c).arrAt 7 cfg0.N : (⟨2, ![200000, 256]⟩ : Shape).Idx → EReal) (ix2 e i))
      = fun e i => Spec.net1 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) e ⟨i.val, by omega⟩ :=
    funext fun e => funext fun i => (Region0.newS_at (V4 m ρ) c e i).trans (net1_eq m ρ c hr e _)
  have eO : (fun (e : Fin 200000) (i : Fin 256) =>
        ((dat0 (V4 m ρ) c).arrAt 9 cfg0.N : (⟨2, ![200000, 256]⟩ : Shape).Idx → EReal) (ix2 e i))
      = fun e i => Spec.net1 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) e ⟨384 + i.val, by omega⟩ :=
    funext fun e => funext fun i => (Region0.newO_at (V4 m ρ) c e i).trans (net1_eq m ρ c hr e _)
  have ep : Region1.pooled (V6 m ρ) c
      = Spec.pool (fun e i => Spec.net1 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) e ⟨i.val, by omega⟩)
        (fun e i => Spec.net1 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) e ⟨384 + i.val, by omega⟩)
        (m ((c : Thread nD τ).loc main_arg2)) := by
    funext o i
    refine (HostIn1.V6_pooled m ρ c o i).trans ?_
    rw [eS, eO]
  have en : Region1.count (V6 m ρ) c = Spec.cnt (m ((c : Thread nD τ).loc main_arg2)) :=
    funext fun o => HostIn1.V6_cnt m ρ c o
  have e3 : Region1.w3 (V6 m ρ) c = fun i k => m ((c : Thread nD τ).loc main_arg7) (ix2 i k) :=
    funext fun i => funext fun k => HostIn1.V6_w3 m ρ c i k
  have e4 : Region1.b3 (V6 m ρ) c = fun k => m ((c : Thread nD τ).loc main_arg8) (ix1 k) :=
    funext fun k => HostIn1.V6_b3 m ρ c k
  have e5 : Region1.w4 (V6 m ρ) c = fun k j => m ((c : Thread nD τ).loc main_arg9) (ix2 k j) :=
    funext fun k => funext fun j => HostIn1.V6_w4 m ρ c k j
  have e6 : Region1.b4 (V6 m ρ) c = fun j => m ((c : Thread nD τ).loc main_arg10) (ix1 j) :=
    funext fun j => HostIn1.V6_b4 m ρ c j
  rw [ep, en, e3, e4, e5, e6]
  rfl

end Cert.KernelIdeal.KernelValue

end
-- ==== Proof.RefNet1.lean ====
import proofs.«428517_j6459630813308_3_alg».proof.Proof.Gen.ReferenceIdeal.Read
import proofs.«428517_j6459630813308_3_alg».proof.Proof.Spec
import proofs.«428517_j6459630813308_3_alg».proof.Proof.LibGatherScatter

set_option maxRecDepth 16384

open scoped BigOperators

noncomputable section

namespace Cert.ReferenceIdeal.RefNet1

open Cert.ReferenceIdeal Cert.ReferenceIdeal.Gen Cert.ReferenceIdeal.Read Idealize.ShloMosaic Idealize.ShloMosaic.TcCoe
open Idealize.ShloMosaic.ValueIdx Idealize.SL.Sem
open Idealize.ShloMosaic.StableHlo.Predicate (ixP)

variable (x0 : (⟨S50000x128, .f32⟩ : BufTy).Contents (Elt Ideal)) (x1 : (⟨S200000x128, .f32⟩ : BufTy).Contents (Elt Ideal))
  (x2 : (⟨S200000x2, .i32⟩ : BufTy).Contents (Elt Ideal)) (x3 : (⟨S384x256, .f32⟩ : BufTy).Contents (Elt Ideal))
  (x4 : (⟨S256, .f32⟩ : BufTy).Contents (Elt Ideal)) (x5 : (⟨S256x640, .f32⟩ : BufTy).Contents (Elt Ideal))
  (x6 : (⟨S640, .f32⟩ : BufTy).Contents (Elt Ideal)) (x7 : (⟨S256x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal))

/-! ## The endpoint rows -/

/-- A word that is not negative is kept by the wrap "if w < 0 then w + 50000 else w". -/
private theorem wrap_keep (w : BitVec 32) (h : 0 ≤ w.toInt) :
    Scalar.select (IntOp.cmpi .slt w 0#32) (IntOp.addi w 50000#32) w = w := by
  have hc : IntOp.cmpi .slt w 0#32 = 0#1 := by
    unfold IntOp.cmpi
    show BitVec.ofBool (w.slt 0#32) = 0#1
    have hf : w.slt 0#32 = false := by
      rw [BitVec.slt]
      simp
      omega
    rw [hf]; rfl
  rw [hc]
  exact select_zero _ _

/-- The subject start-index column at row t is the edge table's word (t, 0). -/
private theorem startS (hr : Spec.InRange x2) (t : Fin 200000) :
    val_main_v9 (F := Ideal) x2 (ixP t) = x2 (ix2 t 0) := by
  rw [val_main_v9_apply, val_main_v8_apply, val_main_v5_apply, val_main_v7_apply, val_main_v4_apply, val_main_v6_apply,
    val_main_c_apply, val_main_c_0_apply, val_main_v1_apply, val_main_v0_apply]
  have e : idx_main_v0 (idx_main_v1 (idx_main_v9 (ixP t))) = ix2 t 0 :=
    funext fun a => Fin.ext (by
      match a with
      | ⟨0, _⟩ => show t.val / 1 = t.val; exact Nat.div_one _
      | ⟨1, _⟩ => rfl)
  rw [e]
  exact wrap_keep _ (hr t 0).1

/-- The object start-index column at row t is the edge table's word (t, 1). -/
private theorem startO (hr : Spec.InRange x2) (t : Fin 200000) :
    val_main_v16 (F := Ideal) x2 (ixP t) = x2 (ix2 t 1) := by
  rw [val_main_v16_apply, val_main_v15_apply, val_main_v12_apply, val_main_v14_apply, val_main_v11_apply, val_main_v13_apply,
    val_main_c_1_apply, val_main_c_2_apply, val_main_v3_apply, val_main_v2_apply]
  have e : idx_main_v2 (idx_main_v3 (idx_main_v16 (ixP t))) = ix2 t 1 :=
    funext fun a => Fin.ext (by
      match a with
      | ⟨0, _⟩ => show t.val / 1 = t.val; exact Nat.div_one _
      | ⟨1, _⟩ => rfl)
  rw [e]
  exact wrap_keep _ (hr t 1).1

/-- The gathered subject rows: row t is the object table's row named by the word (t, 0). -/
private theorem gatherS (hr : Spec.InRange x2) (t : Fin 200000) (i : Fin 128) :
    val_main_v10 (F := Ideal) x0 x2 (ix2 t i) = Spec.endVec x0 x2 0 t i := by
  unfold val_main_v10
  rw [RowOps.gather_rows _ rfl rfl rfl rfl rfl rfl x0 _ t i (by decide)]
  have e : RowOps.clampRow 50000 (by decide) (val_main_v9 (F := Ideal) x2) t = Spec.row (x2 (ix2 t 0)) := by
    apply Fin.ext
    show min (val_main_v9 (F := Ideal) x2 (ixP t)).toInt.toNat (50000 - 1) = min (x2 (ix2 t 0)).toInt.toNat 49999
    rw [startS x2 hr t]
  rw [e]
  rfl

/-- The gathered object rows: row t is the object table's row named by the word (t, 1). -/
private theorem gatherO (hr : Spec.InRange x2) (t : Fin 200000) (i : Fin 128) :
    val_main_v17 (F := Ideal) x0 x2 (ix2 t i) = Spec.endVec x0 x2 1 t i := by
  unfold val_main_v17
  rw [RowOps.gather_rows _ rfl rfl rfl rfl rfl rfl x0 _ t i (by decide)]
  have e : RowOps.clampRow 50000 (by decide) (val_main_v16 (F := Ideal) x2) t = Spec.row (x2 (ix2 t 1)) := by
    apply Fin.ext
    show min (val_main_v16 (F := Ideal) x2 (ixP t)).toInt.toNat (50000 - 1) = min (x2 (ix2 t 1)).toInt.toNat 49999
    rw [startO x2 hr t]
  rw [e]
  rfl

/-! ## The joined input row -/

/-- Columns 0..127 of the joined row are the subject's vector. -/
private theorem cat_s (t : Fin 200000) (i : Fin 128) :
    val_main_v18 (F := Ideal) x0 x1 x2 (ix2 t ⟨i.val, by omega⟩) = val_main_v10 (F := Ideal) x0 x2 (ix2 t i) := by
  unfold val_main_v18
  generalize val_main_v10 (F := Ideal) x0 x2 = y0
  generalize val_main_v17 (F := Ideal) x0 x2 = y2
  refine concatenate_apply_piece (t := S200000x384) 1 [⟨S200000x128, y0⟩, ⟨S200000x128, x1⟩, ⟨S200000x128, y2⟩]
    concatenates_S200000x128_S200000x128_S200000x128_S200000x384_d1 (ix2 t ⟨i.val, by omega⟩) 0 (by show (0 : Nat) < 3; decide)
    S200000x128 y0 rfl rfl 0 rfl (ix2 t i) (fun b hb => ?_) (Nat.zero_add _)
  match b with
  | ⟨0, _⟩ => rfl
  | ⟨1, _⟩ => exact absurd rfl hb

/-- Columns 128..255 of the joined row are the edge's own vector. -/
private theorem cat_p (t : Fin 200000) (i : Fin 128) :
    val_main_v18 (F := Ideal) x0 x1 x2 (ix2 t ⟨128 + i.val, by omega⟩) = x1 (ix2 t i) := by
  unfold val_main_v18
  generalize val_main_v10 (F := Ideal) x0 x2 = y0
  generalize val_main_v17 (F := Ideal) x0 x2 = y2
  refine concatenate_apply_piece (t := S200000x384) 1 [⟨S200000x128, y0⟩, ⟨S200000x128, x1⟩, ⟨S200000x128, y2⟩]
    concatenates_S200000x128_S200000x128_S200000x128_S200000x384_d1 (ix2 t ⟨128 + i.val, by omega⟩) 1 (by show (1 : Nat) < 3; decide)
    S200000x128 x1 rfl rfl 128 rfl (ix2 t i) (fun b hb => ?_) rfl
  match b with
  | ⟨0, _⟩ => rfl
  | ⟨1, _⟩ => exact absurd rfl hb

/-- Columns 256..383 of the joined row are the object's vector. -/
private theorem cat_o (t : Fin 200000) (i : Fin 128) :
    val_main_v18 (F := Ideal) x0 x1 x2 (ix2 t ⟨256 + i.val, by omega⟩) = val_main_v17 (F := Ideal) x0 x2 (ix2 t i) := by
  unfold val_main_v18
  generalize val_main_v10 (F := Ideal) x0 x2 = y0
  generalize val_main_v17 (F := Ideal) x0 x2 = y2
  refine concatenate_apply_piece (t := S200000x384) 1 [⟨S200000x128, y0⟩, ⟨S200000x128, x1⟩, ⟨S200000x128, y2⟩]
    concatenates_S200000x128_S200000x128_S200000x128_S200000x384_d1 (ix2 t ⟨256 + i.val, by omega⟩) 2 (by show (2 : Nat) < 3; decide)
    S200000x128 y2 rfl rfl 256 rfl (ix2 t i) (fun b hb => ?_) rfl
  match b with
  | ⟨0, _⟩ => rfl
  | ⟨1, _⟩ => exact absurd rfl hb

/-! ## A sum over 384 terms in three runs of 128 -/

/-- Terms 0..127, 128..255 and 256..383 summed apart and added left to right. -/
private theorem sum_384_split (f : Fin 384 → EReal) :
    ∑ k : Fin 384, f k
      = ((∑ i : Fin 128, f ⟨i.val, by omega⟩) + (∑ i : Fin 128, f ⟨128 + i.val, by omega⟩))
        + (∑ i : Fin 128, f ⟨256 + i.val, by omega⟩) := by
  show ∑ k : Fin (128 + 128 + 128), f k = _
  rw [Fin.sum_univ_add, Fin.sum_univ_add]
  rfl

/-! ## The two layers -/

/-- Hidden unit k on edge t: the one sum over the 384 joined inputs is the three 128-term sums. -/
private theorem hidden_at (hr : Spec.InRange x2) (t : Fin 200000) (k : Fin 256) :
    val_main_v23 (F := Ideal) x0 x1 x2 x3 x4 (ix2 t k)
      = Spec.net1Hidden (Spec.endVec x0 x2 0) (fun t i => x1 (ix2 t i)) (Spec.endVec x0 x2 1)
          (fun i k => x3 (ix2 i k)) (fun k => x4 (ix1 k)) t k := by
  rw [val_main_v23_apply, val_main_v22_apply, val_main_v19_apply, val_main_v21_apply, val_main_v20_apply,
    val_main_call0_v0_apply, val_main_call0_cst_apply]
  have eb : idx_main_v20 (idx_main_v21 (ix2 t k)) = ix1 k :=
    funext fun a => Fin.ext (by match a with | ⟨0, _⟩ => rfl)
  have el : ∀ q : Fin 384, lidx_main_v19 (ix2 t k) q = ix2 t q := fun q =>
    funext fun a => Fin.ext (by match a with | ⟨0, _⟩ => rfl | ⟨1, _⟩ => rfl)
  have er : ∀ q : Fin 384, ridx_main_v19 (ix2 t k) q = ix2 q k := fun q =>
    funext fun a => Fin.ext (by match a with | ⟨0, _⟩ => rfl | ⟨1, _⟩ => rfl)
  rw [eb]
  simp only [el, er]
  rw [sum_384_split]
  simp only [cat_s, cat_p, cat_o, gatherS x0 x2 hr, gatherO x0 x2 hr]
  unfold Spec.net1Hidden
  simp only [Ideal.maximumf_def, Ideal.addf_def, Ideal.ofBits_def]

/-- The reference's first network, read at row t, column j: its one sum over the 384 concatenated inputs is the
    three 128-term sums of the closed form, when every endpoint is a row number of the object table. -/
theorem net1_at (hr : Spec.InRange x2) (t : Fin 200000) (j : Fin 640) :
    val_main_v28 (F := Ideal) x0 x1 x2 x3 x4 x5 x6 (ix2 t j) = Spec.net1 x0 x1 x2 x3 x4 x5 x6 t j := by
  rw [val_main_v28_apply, val_main_v27_apply, val_main_v24_apply, val_main_v26_apply, val_main_v25_apply,
    val_main_call1_v0_apply, val_main_call1_cst_apply]
  have eb : idx_main_v25 (idx_main_v26 (ix2 t j)) = ix1 j :=
    funext fun a => Fin.ext (by match a with | ⟨0, _⟩ => rfl)
  have el : ∀ q : Fin 256, lidx_main_v24 (ix2 t j) q = ix2 t q := fun q =>
    funext fun a => Fin.ext (by match a with | ⟨0, _⟩ => rfl | ⟨1, _⟩ => rfl)
  have er : ∀ q : Fin 256, ridx_main_v24 (ix2 t j) q = ix2 q j := fun q =>
    funext fun a => Fin.ext (by match a with | ⟨0, _⟩ => rfl | ⟨1, _⟩ => rfl)
  rw [eb]
  simp only [el, er, hidden_at x0 x1 x2 x3 x4 hr]
  unfold Spec.net1 Spec.net1Out
  simp only [Ideal.maximumf_def, Ideal.addf_def, Ideal.ofBits_def]

/-- The reference's second result is columns 256..383 of that. -/
theorem newP_at (hr : Spec.InRange x2) (t : Fin 200000) (j : Fin 128) :
    val_main_v30 (F := Ideal) x0 x1 x2 x3 x4 x5 x6 (ix2 t j) = Spec.newP x0 x1 x2 x3 x4 x5 x6 t j := by
  rw [val_main_v30_apply]
  have e : idx_main_v30 (ix2 t j) = ix2 t ⟨256 + j.val, by omega⟩ :=
    funext fun a => Fin.ext (by match a with | ⟨0, _⟩ => rfl | ⟨1, _⟩ => rfl)
  rw [e]
  exact net1_at x0 x1 x2 x3 x4 x5 x6 hr t _

end Cert.ReferenceIdeal.RefNet1

end
-- ==== Proof.RefNet2.lean ====
/-
  THE REFERENCE'S SECOND NETWORK, element by element. Each object's incoming messages are summed by two scatter-adds of
  message rows (columns 0..255 of the first network's output at the edge's subject word, columns 384..639 at its object
  word) into rows of 0.0 words; the endpoints are counted by two scatter-adds of 1.0 words into 0.0 words; the sums are
  divided by the count (at least 1.0) and go through two layers, each a 256-term sum, a bias and a clamp below at 0.0.
  A scatter-add's element is its operand's element plus the sum of the update rows whose start index, read signed, is
  that row; here the start index of row e is the subject (column 0) resp. object (column 1) word of edge e.
-/
import proofs.«428517_j6459630813308_3_alg».proof.Proof.Gen.ReferenceIdeal.Read
import proofs.«428517_j6459630813308_3_alg».proof.Proof.Spec
import proofs.«428517_j6459630813308_3_alg».proof.Proof.LibGatherScatter
import proofs.«428517_j6459630813308_3_alg».proof.Proof.RefNet1
set_option maxRecDepth 16384

open scoped BigOperators

noncomputable section

namespace Cert.ReferenceIdeal.RefNet2

open Cert.ReferenceIdeal Cert.ReferenceIdeal.Gen Cert.ReferenceIdeal.Read Idealize.ShloMosaic Idealize.ShloMosaic.TcCoe
open Idealize.ShloMosaic.ValueIdx Idealize.SL.Sem
open Idealize.ShloMosaic.StableHlo.Predicate Idealize.ShloMosaic.RowOps

variable (x0 : (⟨S50000x128, .f32⟩ : BufTy).Contents (Elt Ideal)) (x1 : (⟨S200000x128, .f32⟩ : BufTy).Contents (Elt Ideal))
  (x2 : (⟨S200000x2, .i32⟩ : BufTy).Contents (Elt Ideal)) (x3 : (⟨S384x256, .f32⟩ : BufTy).Contents (Elt Ideal))
  (x4 : (⟨S256, .f32⟩ : BufTy).Contents (Elt Ideal)) (x5 : (⟨S256x640, .f32⟩ : BufTy).Contents (Elt Ideal))
  (x6 : (⟨S640, .f32⟩ : BufTy).Contents (Elt Ideal)) (x7 : (⟨S256x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal))

/-- Row e of the subject column of start indices is the subject word of edge e. -/
private theorem subjCol33 (e : Fin 200000) : val_main_v33 (F := Ideal) x2 (ixP e) = x2 (ix2 e 0) := by
  rw [val_main_v33_apply, val_main_v1_apply, val_main_v0_apply]
  congr 1
  funext a
  apply Fin.ext
  match a with
  | ⟨0, _⟩ => exact Nat.div_one _
  | ⟨1, _⟩ => rfl

/-- Row e of the object column of start indices is the object word of edge e. -/
private theorem objCol36 (e : Fin 200000) : val_main_v36 (F := Ideal) x2 (ixP e) = x2 (ix2 e 1) := by
  rw [val_main_v36_apply, val_main_v3_apply, val_main_v2_apply]
  congr 1
  funext a
  apply Fin.ext
  match a with
  | ⟨0, _⟩ => exact Nat.div_one _
  | ⟨1, _⟩ => rfl

/-- The row scatter-add of this program at the extended reals: element (o, i) gains column i of every update row whose
    start index reads signed as o. -/
private theorem scat2 (x : FVec Ideal S50000x256 .f32) (idx : IVec S200000x1 32)
    (upd : FVec Ideal S200000x256 .f32) (o : Fin 50000) (i : Fin 256) :
    Host.scatterAdd (F := Ideal) scatter_S50000x256_S200000x1_S200000x256_1_0_0_1 x idx upd (ix2 o i)
      = x (ix2 o i) + ∑ e ∈ Finset.univ.filter (fun e : Fin 200000 => lands idx e o.val), upd (ix2 e i) :=
  scatterAdd_rows scatter_S50000x256_S200000x1_S200000x256_1_0_0_1 rfl rfl rfl rfl x idx upd o i

/-- The vector scatter-add of this program at the extended reals: position o gains every update whose start index reads
    signed as o. -/
private theorem scat1 (x : FVec Ideal S50000 .f32) (idx : IVec S200000x1 32)
    (upd : FVec Ideal S200000 .f32) (o : Fin 50000) :
    Host.scatterAdd (F := Ideal) scatter_S50000_S200000x1_S200000_n_0_0_1 x idx upd (ix1 o)
      = x (ix1 o) + ∑ e ∈ Finset.univ.filter (fun e : Fin 200000 => lands idx e o.val), upd (ix1 e) :=
  scatterAdd_row1 scatter_S50000_S200000x1_S200000_n_0_0_1 rfl rfl rfl rfl x idx upd o

/-- The counting scatters' subject column of start indices: row e is the subject word of edge e. -/
private theorem subjCol41 (e : Fin 200000) : val_main_v41 (F := Ideal) x2 (ixP e) = x2 (ix2 e 0) := by
  rw [val_main_v41_apply, val_main_v1_apply, val_main_v0_apply]
  congr 1
  funext a
  apply Fin.ext
  match a with
  | ⟨0, _⟩ => exact Nat.div_one _
  | ⟨1, _⟩ => rfl

/-- The counting scatters' object column of start indices: row e is the object word of edge e. -/
private theorem objCol44 (e : Fin 200000) : val_main_v44 (F := Ideal) x2 (ixP e) = x2 (ix2 e 1) := by
  rw [val_main_v44_apply, val_main_v3_apply, val_main_v2_apply]
  congr 1
  funext a
  apply Fin.ext
  match a with
  | ⟨0, _⟩ => exact Nat.div_one _
  | ⟨1, _⟩ => rfl

/-- The summed messages at object o, column i: two scatter-adds of message rows into rows of 0.0 words, added. -/
private theorem pooledR (hr : Spec.InRange x2) (o : Fin 50000) (i : Fin 256) :
    val_main_v38 (F := Ideal) x0 x1 x2 x3 x4 x5 x6 (ix2 o i)
      = Spec.pool (fun e i => Spec.net1 x0 x1 x2 x3 x4 x5 x6 e ⟨i.val, by omega⟩)
          (fun e i => Spec.net1 x0 x1 x2 x3 x4 x5 x6 e ⟨384 + i.val, by omega⟩) x2 o i := by
  rw [val_main_v38_apply, Ideal.addf_def]
  unfold Spec.pool
  refine congrArg₂ (· + ·) ?_ ?_
  · unfold val_main_v34
    rw [scat2]
    refine congrArg₂ (· + ·) ?_ ?_
    · rw [val_main_v32_apply, val_main_cst_apply, Ideal.ofBits_def]
    · refine Finset.sum_congr (Finset.filter_congr fun e _ => ?_) fun e _ => ?_
      · unfold lands; rw [subjCol33]
      · have hi : idx_main_v29 (ix2 e i) = ix2 e ⟨i.val, by omega⟩ :=
          funext fun a => Fin.ext (by match a with | ⟨0, _⟩ => rfl | ⟨1, _⟩ => rfl)
        rw [val_main_v29_apply, hi, RefNet1.net1_at x0 x1 x2 x3 x4 x5 x6 hr]
  · unfold val_main_v37
    rw [scat2]
    refine congrArg₂ (· + ·) ?_ ?_
    · rw [val_main_v35_apply, val_main_cst_3_apply, Ideal.ofBits_def]
    · refine Finset.sum_congr (Finset.filter_congr fun e _ => ?_) fun e _ => ?_
      · unfold lands; rw [objCol36]
      · have hi : idx_main_v31 (ix2 e i) = ix2 e ⟨384 + i.val, by omega⟩ :=
          funext fun a => Fin.ext (by match a with | ⟨0, _⟩ => rfl | ⟨1, _⟩ => rfl)
        rw [val_main_v31_apply, hi, RefNet1.net1_at x0 x1 x2 x3 x4 x5 x6 hr]

/-- The endpoint count at object o: two scatter-adds of 1.0 words into 0.0 words, added. -/
private theorem cntR (o : Fin 50000) : val_main_v46 (F := Ideal) x2 (ix1 o) = Spec.cnt x2 o := by
  rw [val_main_v46_apply, Ideal.addf_def]
  unfold Spec.cnt
  refine congrArg₂ (· + ·) ?_ ?_
  · unfold val_main_v42
    rw [scat1]
    refine congrArg₂ (· + ·) ?_ ?_
    · rw [val_main_v40_apply, val_main_cst_5_apply, Ideal.ofBits_def]
    · refine Finset.sum_congr (Finset.filter_congr fun e _ => ?_) fun e _ => ?_
      · unfold lands; rw [subjCol41]
      · rw [val_main_v39_apply, val_main_cst_4_apply, Ideal.ofBits_def]
  · unfold val_main_v45
    rw [scat1]
    refine congrArg₂ (· + ·) ?_ ?_
    · rw [val_main_v43_apply, val_main_cst_6_apply, Ideal.ofBits_def]
    · refine Finset.sum_congr (Finset.filter_congr fun e _ => ?_) fun e _ => ?_
      · unfold lands; rw [objCol44]
      · rw [val_main_v39_apply, val_main_cst_4_apply, Ideal.ofBits_def]

/-- The divisor at object o (any column): the endpoint count, at least the 1.0 word. -/
private theorem denomR (o : Fin 50000) (i : Fin 256) :
    val_main_v50 (F := Ideal) x2 (ix2 o i) = max (Spec.cnt x2 o) Spec.oneW := by
  have h : idx_main_v49 (idx_main_v50 (ix2 o i)) = ix1 o :=
    funext fun a => Fin.ext (by match a with | ⟨0, _⟩ => rfl)
  rw [val_main_v50_apply, val_main_v49_apply, h, val_main_v48_apply, Ideal.maximumf_def, cntR, val_main_v47_apply,
    val_main_cst_7_apply, Ideal.ofBits_def]

/-- Hidden unit k of the second network at object o: the averaged messages against column k of the first weight,
    the bias, clamped below at the 0.0 word. -/
private theorem hiddenR (hr : Spec.InRange x2) (o : Fin 50000) (k : Fin 256) :
    val_main_v56 (F := Ideal) x0 x1 x2 x3 x4 x5 x6 x7 x8 (ix2 o k)
      = max ((∑ i : Fin 256,
              Ideal.div (Spec.pool (fun e i => Spec.net1 x0 x1 x2 x3 x4 x5 x6 e ⟨i.val, by omega⟩)
                  (fun e i => Spec.net1 x0 x1 x2 x3 x4 x5 x6 e ⟨384 + i.val, by omega⟩) x2 o i)
                (max (Spec.cnt x2 o) Spec.oneW) * x7 (ix2 i k)) + x8 (ix1 k)) Spec.zeroW := by
  rw [val_main_v56_apply, Ideal.maximumf_def, val_main_v55_apply, Ideal.addf_def, val_main_v52_apply]
  refine congrArg₂ max (congrArg₂ (· + ·) (Finset.sum_congr rfl fun i _ => ?_) ?_) ?_
  · have hl : lidx_main_v52 (ix2 o k) i = ix2 o i :=
      funext fun a => Fin.ext (by match a with | ⟨0, _⟩ => rfl | ⟨1, _⟩ => rfl)
    have hrt : ridx_main_v52 (ix2 o k) i = ix2 i k :=
      funext fun a => Fin.ext (by match a with | ⟨0, _⟩ => rfl | ⟨1, _⟩ => rfl)
    rw [hl, hrt, val_main_v51_apply, Ideal.hostDivf_def, pooledR x0 x1 x2 x3 x4 x5 x6 hr, denomR]
  · have hb : idx_main_v53 (idx_main_v54 (ix2 o k)) = ix1 k :=
      funext fun a => Fin.ext (by match a with | ⟨0, _⟩ => rfl)
    rw [val_main_v54_apply, val_main_v53_apply, hb]
  · rw [val_main_call2_v0_apply, val_main_call2_cst_apply, Ideal.ofBits_def]

/-- The reference's first result, read at row o, column j, is the closed form. -/
theorem newObj_at (hr : Spec.InRange x2) (o : Fin 50000) (j : Fin 128) :
    val_main_v61 (F := Ideal) x0 x1 x2 x3 x4 x5 x6 x7 x8 x9 x10 (ix2 o j)
      = Spec.newObj x0 x1 x2 x3 x4 x5 x6 x7 x8 x9 x10 o j := by
  rw [val_main_v61_apply, Ideal.maximumf_def, val_main_v60_apply, Ideal.addf_def, val_main_v57_apply]
  unfold Spec.newObj Spec.net2Out
  refine congrArg₂ max (congrArg₂ (· + ·) (Finset.sum_congr rfl fun k _ => ?_) ?_) ?_
  · have hl : lidx_main_v57 (ix2 o j) k = ix2 o k :=
      funext fun a => Fin.ext (by match a with | ⟨0, _⟩ => rfl | ⟨1, _⟩ => rfl)
    have hrt : ridx_main_v57 (ix2 o j) k = ix2 k j :=
      funext fun a => Fin.ext (by match a with | ⟨0, _⟩ => rfl | ⟨1, _⟩ => rfl)
    rw [hl, hrt, hiddenR x0 x1 x2 x3 x4 x5 x6 x7 x8 hr]
  · have hb : idx_main_v58 (idx_main_v59 (ix2 o j)) = ix1 j :=
      funext fun a => Fin.ext (by match a with | ⟨0, _⟩ => rfl)
    rw [val_main_v59_apply, val_main_v58_apply, hb]
  · rw [val_main_call3_v0_apply, val_main_call3_cst_apply, Ideal.ofBits_def]

end Cert.ReferenceIdeal.RefNet2

end
-- ==== Proof.PreRange.lean ====
import proofs.«428517_j6459630813308_3_alg».proof.Pre_finite_inputs
import proofs.«428517_j6459630813308_3_alg».proof.Proof.Spec
import Idealize.ShloMosaic.Lib.ReduceAll
import Idealize.ShloMosaic.Lib.StableHlo.Predicate

noncomputable section

namespace Cert.Pre_finite_inputs.Range

open Cert.Pre_finite_inputs Idealize.ShloMosaic Idealize.ShloMosaic.ValueIdx

variable [Cert.Pre_finite_inputs.Facts] {F : FTy → Type} [FloatOps F]

/-- A reduction over every axis lands in a result with exactly one index. -/
private theorem subsingleton_scalarIdx : Subsingleton S_.Idx := ⟨fun a b => funext fun d => d.elim0⟩

/-- The array of range tests: entry (t, a) is the and of two bits, "the endpoint word read signed is at least the
    constant 0" and "the endpoint word read signed is below the constant 50000", each constant laid over the whole
    200000 × 2 rectangle. -/
private def tests (a2 : IVec S200000x2 32) : IVec S200000x2 1 :=
  andi (cmpi .sge a2 (broadcastInDim S200000x2 ![] Facts.bcast_S_S200000x2 (constantI S_ 32 0#32)))
       (cmpi .slt a2 (broadcastInDim S200000x2 ![] Facts.bcast_S_S200000x2 (constantI S_ 32 50000#32)))

/-- The printed conjunction is one bit (the and of the ten finiteness tests on the float arrays) and-ed with the
    and-reduction, over both axes and started at 1, of the range tests. Only the let-chain is opened; no reduction
    is evaluated. -/
private theorem fn_shape (a0 : FVec F S50000x128 .f32) (a1 : FVec F S200000x128 .f32) (a2 : IVec S200000x2 32)
    (a3 : FVec F S384x256 .f32) (a4 : FVec F S256 .f32) (a5 : FVec F S256x640 .f32) (a6 : FVec F S640 .f32)
    (a7 : FVec F S256x256 .f32) (a8 : FVec F S256 .f32) (a9 : FVec F S256x128 .f32) (a10 : FVec F S128 .f32) :
    ∃ v : IVec S_ 1, fn (F := F) a0 a1 a2 a3 a4 a5 a6 a7 a8 a9 a10
      = andi v (Host.reduce IntOp.andi (tests a2) (constantI S_ 1 1#1) Facts.reducesTo_S200000x2_S_d0_1 Facts.h_S_) :=
  ⟨_, rfl⟩

/-- The precondition's last conjunct, read back: every endpoint of every edge, read signed, is at least 0 and
    below 50000. -/
theorem inRange_of_fn (a0 : FVec F S50000x128 .f32) (a1 : FVec F S200000x128 .f32) (a2 : IVec S200000x2 32)
    (a3 : FVec F S384x256 .f32) (a4 : FVec F S256 .f32) (a5 : FVec F S256x640 .f32) (a6 : FVec F S640 .f32)
    (a7 : FVec F S256x256 .f32) (a8 : FVec F S256 .f32) (a9 : FVec F S256x128 .f32) (a10 : FVec F S128 .f32)
    (h : fn (F := F) a0 a1 a2 a3 a4 a5 a6 a7 a8 a9 a10 = fun _ => 1#1) : Spec.InRange a2 := by
  haveI := subsingleton_scalarIdx
  obtain ⟨v, hv⟩ := fn_shape a0 a1 a2 a3 a4 a5 a6 a7 a8 a9 a10
  rw [hv] at h
  -- at the one index of the result the and of two bits is 1, so each bit is 1; keep the second, the reduction
  have h0 : IntOp.andi (v ix0) (Host.reduce IntOp.andi (tests a2) (constantI S_ 1 1#1)
      Facts.reducesTo_S200000x2_S_d0_1 Facts.h_S_ ix0) = 1#1 := congrFun h ix0
  -- an and-reduction over all axes that came out 1 met a 1 at every entry
  have hall := Host.reduce_andi_all _ _ _ _ _ (IntOp.andi_eq_one.1 h0).2
  intro t a
  -- entry (t, a) of the tests: both broadcast constants read as the constant itself at every index
  have hta : IntOp.andi (IntOp.cmpi .sge (a2 (ix2 t a)) (0#32)) (IntOp.cmpi .slt (a2 (ix2 t a)) (50000#32)) = 1#1 :=
    hall (ix2 t a)
  obtain ⟨hge, hlt⟩ := IntOp.andi_eq_one.1 hta
  -- a signed compare that is 1 is the order of the two words' signed values
  have hge' := IntOp.cmpi_sge.1 hge
  have hlt' := IntOp.cmpi_slt.1 hlt
  have e0 : (0#32 : BitVec 32).toInt = 0 := by decide
  have e1 : (50000#32 : BitVec 32).toInt = 50000 := by decide
  rw [e0] at hge'
  rw [e1] at hlt'
  exact ⟨hge', hlt'⟩

end Cert.Pre_finite_inputs.Range

end
-- ==== Proof.lean ====
/-
  THE CERTIFICATE: a message-passing layer over a graph of 50000 objects and 200000 edges. Per edge, a two-layer
  network reads the subject's vector, the predicate's vector and the object's vector and returns a message to the
  subject, a new predicate vector and a message to the object; per object the messages are summed, divided by the
  number of edge endpoints at the object (at least one), and a second two-layer network returns the object's new
  vector. The kernel does the two networks in two pallas_calls over row blocks of 2000, the first layer of the first as
  three partial products instead of one product with the concatenation, the endpoint count in one pass over all
  400000 endpoints instead of two; the reference is plain array code. On the extended reals both compute the closed
  forms of Proof/Spec.lean, WHEN every endpoint is a row number of the object table: outside the table the
  reference's gather reads the nearest row and the kernel's reads zeros, which is why the precondition says so.

  The three frames: the kernel's two are the generated ones, the reference's its generated run with the results dropped.
  Nothing was rewritten on the way to the idealized kernel, so that conjunct is trivial. The equivalence: the kernel's
  run with its results named (Proof/RunResults.lean) and their values (Proof/KernelValue.lean, over the two calls'
  block-by-block results in Proof/Region0.lean and Proof/Region1.lean and the host operations around them in
  Proof/HostIn0.lean and Proof/HostIn1.lean), against the reference's generated run with its stages read index by index
  (Proof/RefNet1.lean, Proof/RefNet2.lean); the endpoints' range is read off the precondition in Proof/PreRange.lean.
-/
import proofs.«428517_j6459630813308_3_alg».proof.Defs
import proofs.«428517_j6459630813308_3_alg».proof.Proof.Gen.Kernel
import proofs.«428517_j6459630813308_3_alg».proof.Proof.Gen.Kernel.Frame
import proofs.«428517_j6459630813308_3_alg».proof.Proof.Gen.KernelIdeal
import proofs.«428517_j6459630813308_3_alg».proof.Proof.Gen.KernelIdeal.Frame
import proofs.«428517_j6459630813308_3_alg».proof.Proof.Gen.ReferenceIdeal
import proofs.«428517_j6459630813308_3_alg».proof.Proof.Gen.Pre_finite_inputs
import proofs.«428517_j6459630813308_3_alg».proof.Proof.Gen.ReferenceIdeal.Run
import proofs.«428517_j6459630813308_3_alg».proof.Proof.Gen.ReferenceIdeal.Read
import proofs.«428517_j6459630813308_3_alg».proof.Proof.RunResults
import proofs.«428517_j6459630813308_3_alg».proof.Proof.KernelValue
import proofs.«428517_j6459630813308_3_alg».proof.Proof.RefNet1
import proofs.«428517_j6459630813308_3_alg».proof.Proof.RefNet2
import proofs.«428517_j6459630813308_3_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts
  Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the closed forms of the argument arrays in their result buffers. -/
theorem algebraic : Cert.algebraic_KernelIdeal_ReferenceIdeal := by
  intro m ρ m' ρ' hpre hagree
  have hr : ∀ c : Dev Cert.KernelIdeal.nD,
      Spec.InRange (m ((c.tc : Thread Cert.KernelIdeal.nD Cert.KernelIdeal.τ).loc Cert.KernelIdeal.main_arg2)) :=
    fun c => Cert.Pre_finite_inputs.Range.inRange_of_fn _ _ _ _ _ _ _ _ _ _ _ (hpre c)
  refine ⟨fun c => Spec.outObj
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => Spec.outP
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · -- the kernel: its run with the results named, their values the closed forms
    refine (θ_run Cert.KernelIdeal.defs _ _).mono (fun r h c => ⟨?_, ?_, (h c).2.2⟩)
      (Cert.KernelIdeal.RunResults.run_results (F := Ideal) m ρ)
    · exact (h c).1.trans (Cert.KernelIdeal.KernelValue.newObj_value m ρ c (hr c))
    · exact (h c).2.1.trans (Cert.KernelIdeal.KernelValue.newP_value m ρ c (hr c))
  · -- the reference: its generated run, each result's term read as its last stage, the stage index by index
    refine (θ_run Cert.ReferenceIdeal.defs _ _).mono (fun r h c => ⟨?_, ?_, (h c).2.2⟩)
      (Cert.ReferenceIdeal.Value.run (F := Ideal) m' ρ')
    · refine (h c).1.trans ?_
      rw [Cert.ReferenceIdeal.Read.val_main_v61_eq]
      obtain ⟨a0, a1, a2, a3, a4, a5, a6, a7, a8, a9, a10⟩ := hagree c
      rw [a0, a1, a2, a3, a4, a5, a6, a7, a8, a9, a10]
      exact Spec.eq_outObj _ _ _ _ _ _ _ _ _ _ _ _ fun o j =>
        Cert.ReferenceIdeal.RefNet2.newObj_at _ _ _ _ _ _ _ _ _ _ _ (hr c) o j
    · refine (h c).2.1.trans ?_
      rw [Cert.ReferenceIdeal.Read.val_main_v30_eq]
      obtain ⟨a0, a1, a2, a3, a4, a5, a6, a7, a8, a9, a10⟩ := hagree c
      rw [a0, a1, a2, a3, a4, a5, a6]
      exact Spec.eq_outP _ _ _ _ _ _ _ _ fun t j =>
        Cert.ReferenceIdeal.RefNet1.newP_at _ _ _ _ _ _ _ (hr c) t j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
